-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S49152 : Shape := ⟨1, ![49152]⟩
abbrev S16384 : Shape := ⟨1, ![16384]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S49152 : S_.BroadcastsInDim S49152 (![] : Fin 0 → Fin S49152.rank)
  reducesTo_S49152_S_d0 : S49152.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg7 : IVec S16384 32) (main_v32 : IVec S_ 1) (main_c_12 : IVec S_ 32) : IVec S_ 1 :=
  let main_v33 : IVec S16384 32 := broadcastInDim S16384 ![] bcast_S_S16384 main_c_12
  let main_v34 : IVec S16384 1 := cmpi .sge main_arg7 main_v33
  let main_c_13 : IVec S_ 32 := constantI S_ 32 3584#32
  let main_v35 : IVec S16384 32 := broadcastInDim S16384 ![] bcast_S_S16384 main_c_13
  let main_v36 : IVec S16384 1 := cmpi .slt main_arg7 main_v35
  let main_v37 : IVec S16384 1 := andi main_v34 main_v36
  let main_c_14 : IVec S_ 1 := constantI S_ 1 1#1
  let main_v38 : IVec S_ 1 := (fun x v => Host.reduce IntOp.andi x v reducesTo_S16384_S_d0 h_S_) main_v37 main_c_14
  let main_v39 : IVec S_ 1 := andi main_v32 main_v38
  main_v39

def fn_part1 {F : FTy → Type} [FloatOps F] (main_arg1 : IVec S49152 32) (main_arg4 : IVec S49152 32) (main_arg7 : IVec S16384 32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_c_6 : IVec S_ 32 := constantI S_ 32 0#32
  let main_v19 : IVec S49152 32 := broadcastInDim S49152 ![] bcast_S_S49152 main_c_6
  let main_v20 : IVec S49152 1 := cmpi .sge main_arg1 main_v19
  let main_c_7 : IVec S_ 32 := constantI S_ 32 512#32
  let main_v21 : IVec S49152 32 := broadcastInDim S49152 ![] bcast_S_S49152 main_c_7
  let main_v22 : IVec S49152 1 := cmpi .slt main_arg1 main_v21
  let main_v23 : IVec S49152 1 := andi main_v20 main_v22
  let main_c_8 : IVec S_ 1 := constantI S_ 1 1#1
  let main_v24 : IVec S_ 1 := (fun x v => Host.reduce IntOp.andi x v reducesTo_S49152_S_d0 h_S_) main_v23 main_c_8
  let main_v25 : IVec S_ 1 := andi main_v18 main_v24
  let main_c_9 : IVec S_ 32 := constantI S_ 32 0#32
  let main_v26 : IVec S49152 32 := broadcastInDim S49152 ![] bcast_S_S49152 main_c_9
  let main_v27 : IVec S49152 1 := cmpi .sge main_arg4 main_v26
  let main_c_10 : IVec S_ 32 := constantI S_ 32 2048#32
  let main_v28 : IVec S49152 32 := broadcastInDim S49152 ![] bcast_S_S49152 main_c_10
  let main_v29 : IVec S49152 1 := cmpi .slt main_arg4 main_v28
  let main_v30 : IVec S49152 1 := andi main_v27 main_v29
  let main_c_11 : IVec S_ 1 := constantI S_ 1 1#1
  let main_v31 : IVec S_ 1 := (fun x v => Host.reduce IntOp.andi x v reducesTo_S49152_S_d0 h_S_) main_v30 main_c_11
  let main_v32 : IVec S_ 1 := andi main_v25 main_v31
  let main_c_12 : IVec S_ 32 := constantI S_ 32 0#32
  fn_part2 (F := F) main_arg7 main_v32 main_c_12

def fn {F : FTy → Type} [FloatOps F] (main_arg0 : FVec F S4096x512 .f32) (main_arg1 : IVec S49152 32) (main_arg2 : IVec S49152 32) (main_arg3 : FVec F S49152 .f32) (main_arg4 : IVec S49152 32) (main_arg5 : IVec S49152 32) (main_arg6 : FVec F S49152 .f32) (main_arg7 : IVec S16384 32) (main_arg8 : IVec S16384 32) (main_arg9 : FVec F S16384 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S49152 .f32 := Host.absf main_arg3
  let main_cst_0 : FVec F S_ .f32 := constant S_ .f32 0x7F800000#32
  let main_v5 : FVec F S49152 .f32 := broadcastInDim S49152 ![] bcast_S_S49152 main_cst_0
  let main_v6 : IVec S49152 1 := cmpf .olt main_v4 main_v5
  let main_c_1 : IVec S_ 1 := constantI S_ 1 1#1
  let main_v7 : IVec S_ 1 := (fun x v => Host.reduce IntOp.andi x v reducesTo_S49152_S_d0 h_S_) main_v6 main_c_1
  let main_v8 : IVec S_ 1 := andi main_v3 main_v7
  let main_v9 : FVec F S49152 .f32 := Host.absf main_arg6
  let main_cst_2 : FVec F S_ .f32 := constant S_ .f32 0x7F800000#32
  let main_v10 : FVec F S49152 .f32 := broadcastInDim S49152 ![] bcast_S_S49152 main_cst_2
  let main_v11 : IVec S49152 1 := cmpf .olt main_v9 main_v10
  let main_c_3 : IVec S_ 1 := constantI S_ 1 1#1
  let main_v12 : IVec S_ 1 := (fun x v => Host.reduce IntOp.andi x v reducesTo_S49152_S_d0 h_S_) main_v11 main_c_3
  let main_v13 : IVec S_ 1 := andi main_v8 main_v12
  let main_v14 : FVec F S16384 .f32 := Host.absf main_arg9
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg1 main_arg4 main_arg7 main_v13 main_v16
-- ==== Kernel.lean ====
abbrev S4096x512 : Shape := ⟨2, ![4096, 512]⟩
abbrev S49152 : Shape := ⟨1, ![49152]⟩
abbrev S16384 : Shape := ⟨1, ![16384]⟩
abbrev S_ : Shape := ⟨0, ![]⟩
abbrev S512x1536 : Shape := ⟨2, ![512, 1536]⟩
abbrev S49152x1 : Shape := ⟨2, ![49152, 1]⟩
abbrev S49152x2 : Shape := ⟨2, ![49152, 2]⟩
abbrev S2048x1536 : Shape := ⟨2, ![2048, 1536]⟩
abbrev S3584x512 : Shape := ⟨2, ![3584, 512]⟩
abbrev S16384x1 : Shape := ⟨2, ![16384, 1]⟩
abbrev S16384x2 : Shape := ⟨2, ![16384, 2]⟩
abbrev S512x512 : Shape := ⟨2, ![512, 512]⟩
abbrev S1536x1536 : Shape := ⟨2, ![1536, 1536]⟩
abbrev S1536x512 : Shape := ⟨2, ![1536, 512]⟩

abbrev nBuf : Space → Nat
  | .hbm => 71
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S49152, .i32⟩
  | .hbm, ⟨2, _⟩ => ⟨S49152, .i32⟩
  | .hbm, ⟨3, _⟩ => ⟨S49152, .f32⟩
  | .hbm, ⟨4, _⟩ => ⟨S49152, .i32⟩
  | .hbm, ⟨5, _⟩ => ⟨S49152, .i32⟩
  | .hbm, ⟨6, _⟩ => ⟨S49152, .f32⟩
  | .hbm, ⟨7, _⟩ => ⟨S16384, .i32⟩
  | .hbm, ⟨8, _⟩ => ⟨S16384, .i32⟩
  | .hbm, ⟨9, _⟩ => ⟨S16384, .f32⟩
  | .hbm, ⟨10, _⟩ => ⟨S_, .f32⟩
  | .hbm, ⟨11, _⟩ => ⟨S512x1536, .f32⟩
  | .hbm, ⟨12, _⟩ => ⟨S_, .i32⟩
  | .hbm, ⟨13, _⟩ => ⟨S49152, .i32⟩
  | .hbm, ⟨14, _⟩ => ⟨S49152, .i1⟩
  | .hbm, ⟨15, _⟩ => ⟨S_, .i32⟩
  | .hbm, ⟨16, _⟩ => ⟨S49152, .i32⟩
  | .hbm, ⟨17, _⟩ => ⟨S49152, .i32⟩
  | .hbm, ⟨18, _⟩ => ⟨S49152, .i32⟩
  | .hbm, ⟨19, _⟩ => ⟨S_, .i32⟩
  | .hbm, ⟨20, _⟩ => ⟨S49152, .i32⟩
  | .hbm, ⟨21, _⟩ => ⟨S49152, .i1⟩
  | .hbm, ⟨22, _⟩ => ⟨S_, .i32⟩
  | .hbm, ⟨23, _⟩ => ⟨S49152, .i32⟩
  | .hbm, ⟨24, _⟩ => ⟨S49152, .i32⟩
  | .hbm, ⟨25, _⟩ => ⟨S49152, .i32⟩
  | .hbm, ⟨26, _⟩ => ⟨S49152x1, .i32⟩
  | .hbm, ⟨27, _⟩ => ⟨S49152x1, .i32⟩
  | .hbm, ⟨28, _⟩ => ⟨S49152x2, .i32⟩
  | .hbm, ⟨29, _⟩ => ⟨S512x1536, .f32⟩
  | .hbm, ⟨30, _⟩ => ⟨S_, .f32⟩
  | .hbm, ⟨31, _⟩ => ⟨S2048x1536, .f32⟩
  | .hbm, ⟨32, _⟩ => ⟨S_, .i32⟩
  | .hbm, ⟨33, _⟩ => ⟨S49152, .i32⟩
  | .hbm, ⟨34, _⟩ => ⟨S49152, .i1⟩
  | .hbm, ⟨35, _⟩ => ⟨S_, .i32⟩
  | .hbm, ⟨36, _⟩ => ⟨S49152, .i32⟩
  | .hbm, ⟨37, _⟩ => ⟨S49152, .i32⟩
  | .hbm, ⟨38, _⟩ => ⟨S49152, .i32⟩
  | .hbm, ⟨39, _⟩ => ⟨S_, .i32⟩
  | .hbm, ⟨40, _⟩ => ⟨S49152, .i32⟩
  | .hbm, ⟨41, _⟩ => ⟨S49152, .i1⟩
  | .hbm, ⟨42, _⟩ => ⟨S_, .i32⟩
  | .hbm, ⟨43, _⟩ => ⟨S49152, .i32⟩
  | .hbm, ⟨44, _⟩ => ⟨S49152, .i32⟩
  | .hbm, ⟨45, _⟩ => ⟨S49152, .i32⟩
  | .hbm, ⟨46, _⟩ => ⟨S49152x1, .i32⟩
  | .hbm, ⟨47, _⟩ => ⟨S49152x1, .i32⟩
  | .hbm, ⟨48, _⟩ => ⟨S49152x2, .i32⟩
  | .hbm, ⟨49, _⟩ => ⟨S2048x1536, .f32⟩
  | .hbm, ⟨50, _⟩ => ⟨S_, .f32⟩
  | .hbm, ⟨51, _⟩ => ⟨S3584x512, .f32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S_, .i32⟩
  | .hbm, ⟨60, _⟩ => ⟨S16384, .i32⟩
  | .hbm, ⟨61, _⟩ => ⟨S16384, .i1⟩
  | .hbm, ⟨62, _⟩ => ⟨S_, .i32⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S16384x1, .i32⟩
  | .hbm, ⟨67, _⟩ => ⟨S16384x1, .i32⟩
  | .hbm, ⟨68, _⟩ => ⟨S16384x2, .i32⟩
  | .hbm, ⟨69, _⟩ => ⟨S3584x512, .f32⟩
  | .hbm, ⟨70, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x1536, .f32⟩
  | .local _ .vmem, ⟨3, _⟩ => ⟨S2048x1536, .f32⟩
  | .local _ .vmem, ⟨4, _⟩ => ⟨S3584x512, .f32⟩
  | .local _ .vmem, ⟨5, _⟩ => ⟨S512x512, .f32⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_c_9 : Ref sig .tc := ⟨.hbm, 52, rfl⟩
abbrev main_v31 : Ref sig .tc := ⟨.hbm, 53, rfl⟩
abbrev main_v32 : Ref sig .tc := ⟨.hbm, 54, rfl⟩
abbrev main_c_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_11 : Ref sig .tc := ⟨.hbm, 59, rfl⟩
abbrev main_v36 : Ref sig .tc := ⟨.hbm, 60, rfl⟩
abbrev main_v37 : Ref sig .tc := ⟨.hbm, 61, rfl⟩
abbrev main_c_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3584x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512x1536 : S_.BroadcastsInDim S512x1536 (![] : Fin 0 → Fin S512x1536.rank)
  bcast_S_S49152 : S_.BroadcastsInDim S49152 (![] : Fin 0 → Fin S49152.rank)
  bcast_S49152_S49152x1_0 : S49152.BroadcastsInDim S49152x1 (![0] : Fin 1 → Fin S49152x1.rank)
  concatenates_S49152x1_S49152x1_S49152x2_d1 : Shape.Concatenates [S49152x1, S49152x1] S49152x2 1
  bcast_S_S2048x1536 : S_.BroadcastsInDim S2048x1536 (![] : Fin 0 → Fin S2048x1536.rank)
  bcast_S_S3584x512 : S_.BroadcastsInDim S3584x512 (![] : Fin 0 → Fin S3584x512.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  slices_S2048x1536_o0_0_S512x1536 : S2048x1536.Slices ![0, 0] S512x1536
  slices_S2048x1536_o512_0_S1536x1536 : S2048x1536.Slices ![512, 0] S1536x1536
  inb_S3584x512_S3584x512_0_0 : ∀ a, (![0, 0] : Fin 2 → Nat) a + S3584x512.size a ≤ S3584x512.size a
  h_S3584x512 : 0 < S3584x512.numel
  shapeCasts_S3584x512_S3584x512 : S3584x512.ShapeCasts S3584x512
  slices_S3584x512_o0_0_S512x512 : S3584x512.Slices ![0, 0] S512x512
  slices_S3584x512_o512_0_S1536x512 : S3584x512.Slices ![512, 0] S1536x512
  slices_S3584x512_o2048_0_S1536x512 : S3584x512.Slices ![2048, 0] S1536x512
  scatter_S512x1536_S49152x2_S49152_n_01_01_1_wf : ScatterDims.WF S512x1536 S49152x2 S49152 [] [0, 1] [0, 1] 1
  scatter_S2048x1536_S49152x2_S49152_n_01_01_1_wf : ScatterDims.WF S2048x1536 S49152x2 S49152 [] [0, 1] [0, 1] 1
  scatter_S3584x512_S16384x2_S16384_n_01_01_1_wf : ScatterDims.WF S3584x512 S16384x2 S16384 [] [0, 1] [0, 1] 1
  dot_S512x512_S512x1536_S512x1536_1_0_0_1_n_n_wf : DotDims.WF S512x512 S512x1536 S512x1536 [1] [0] [0] [1] [] []
  dot_S512x1536_S1536x1536_S512x1536_1_0_0_1_n_n_wf : DotDims.WF S512x1536 S1536x1536 S512x1536 [1] [0] [0] [1] [] []
  dot_S512x512_S512x512_S512x512_1_0_0_1_n_n_wf : DotDims.WF S512x512 S512x512 S512x512 [1] [0] [0] [1] [] []
  dot_S512x1536_S1536x512_S512x512_1_0_0_1_n_n_wf : DotDims.WF S512x1536 S1536x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1536.size a ≤ S2048x1536.size a
  hwx0_2 : ∀ i : grid0.Coords, EltTy.bits .f32 = 32 ∨ (Rect.block (s := S2048x1536) S2048x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3584x512.size a ≤ S3584x512.size a
  hwx0_3 : ∀ i : grid0.Coords, EltTy.bits .f32 = 32 ∨ (Rect.block (s := S3584x512) S3584x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .f32 = 32 ∨ (Rect.block (s := S4096x512) S512x512.size (cc0_transform_4 i) (hinb0_4 i)).WholeWords (EltTy.packing .f32)

variable [Facts₀]

def scatter_S512x1536_S49152x2_S49152_n_01_01_1 : ScatterDims S512x1536 S49152x2 S49152 where
  updateWindowDims := []
  insertedWindowDims := [0, 1]
  scatterDimsToOperandDims := [0, 1]
  indexVectorDim := 1
  wf := scatter_S512x1536_S49152x2_S49152_n_01_01_1_wf
def scatter_S2048x1536_S49152x2_S49152_n_01_01_1 : ScatterDims S2048x1536 S49152x2 S49152 where
  updateWindowDims := []
  insertedWindowDims := [0, 1]
  scatterDimsToOperandDims := [0, 1]
  indexVectorDim := 1
  wf := scatter_S2048x1536_S49152x2_S49152_n_01_01_1_wf
def scatter_S3584x512_S16384x2_S16384_n_01_01_1 : ScatterDims S3584x512 S16384x2 S16384 where
  updateWindowDims := []
  insertedWindowDims := [0, 1]
  scatterDimsToOperandDims := [0, 1]
  indexVectorDim := 1
  wf := scatter_S3584x512_S16384x2_S16384_n_01_01_1_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x1536_S1536x1536_S512x1536_1_0_0_1_n_n : DotDims S512x1536 S1536x1536 S512x1536 where
  lhsContracting := [1]
  rhsContracting := [0]
  lhsNonContracting := [0]
  rhsNonContracting := [1]
  lhsBatch := []
  rhsBatch := []
  wf := dot_S512x1536_S1536x1536_S512x1536_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2048x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S3584x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S49152 : Shape := ⟨1, ![49152]⟩
abbrev S16384 : Shape := ⟨1, ![16384]⟩
abbrev S_ : Shape := ⟨0, ![]⟩
abbrev S49152x1 : Shape := ⟨2, ![49152, 1]⟩
abbrev S4096x49152 : Shape := ⟨2, ![4096, 49152]⟩
abbrev S1x49152 : Shape := ⟨2, ![1, 49152]⟩
abbrev S4096x1536 : Shape := ⟨2, ![4096, 1536]⟩
abbrev S4096x2048 : Shape := ⟨2, ![4096, 2048]⟩
abbrev S4096x3584 : Shape := ⟨2, ![4096, 3584]⟩
abbrev S16384x1 : Shape := ⟨2, ![16384, 1]⟩
abbrev S4096x16384 : Shape := ⟨2, ![4096, 16384]⟩
abbrev S1x16384 : Shape := ⟨2, ![1, 16384]⟩

abbrev nBuf : Space → Nat
  | .hbm => 90
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S49152, .i32⟩
  | .hbm, ⟨2, _⟩ => ⟨S49152, .i32⟩
  | .hbm, ⟨3, _⟩ => ⟨S49152, .f32⟩
  | .hbm, ⟨4, _⟩ => ⟨S49152, .i32⟩
  | .hbm, ⟨5, _⟩ => ⟨S49152, .i32⟩
  | .hbm, ⟨6, _⟩ => ⟨S49152, .f32⟩
  | .hbm, ⟨7, _⟩ => ⟨S16384, .i32⟩
  | .hbm, ⟨8, _⟩ => ⟨S16384, .i32⟩
  | .hbm, ⟨9, _⟩ => ⟨S16384, .f32⟩
  | .hbm, ⟨10, _⟩ => ⟨S_, .i32⟩
  | .hbm, ⟨11, _⟩ => ⟨S49152, .i32⟩
  | .hbm, ⟨12, _⟩ => ⟨S49152, .i1⟩
  | .hbm, ⟨13, _⟩ => ⟨S_, .i32⟩
  | .hbm, ⟨14, _⟩ => ⟨S49152, .i32⟩
  | .hbm, ⟨15, _⟩ => ⟨S49152, .i32⟩
  | .hbm, ⟨16, _⟩ => ⟨S49152, .i32⟩
  | .hbm, ⟨17, _⟩ => ⟨S49152x1, .i32⟩
  | .hbm, ⟨18, _⟩ => ⟨S4096x49152, .f32⟩
  | .hbm, ⟨19, _⟩ => ⟨S1x49152, .f32⟩
  | .hbm, ⟨20, _⟩ => ⟨S4096x49152, .f32⟩
  | .hbm, ⟨21, _⟩ => ⟨S4096x49152, .f32⟩
  | .hbm, ⟨22, _⟩ => ⟨S_, .f32⟩
  | .hbm, ⟨23, _⟩ => ⟨S4096x1536, .f32⟩
  | .hbm, ⟨24, _⟩ => ⟨S_, .i32⟩
  | .hbm, ⟨25, _⟩ => ⟨S49152, .i32⟩
  | .hbm, ⟨26, _⟩ => ⟨S49152, .i1⟩
  | .hbm, ⟨27, _⟩ => ⟨S_, .i32⟩
  | .hbm, ⟨28, _⟩ => ⟨S49152, .i32⟩
  | .hbm, ⟨29, _⟩ => ⟨S49152, .i32⟩
  | .hbm, ⟨30, _⟩ => ⟨S49152, .i32⟩
  | .hbm, ⟨31, _⟩ => ⟨S49152x1, .i32⟩
  | .hbm, ⟨32, _⟩ => ⟨S4096x1536, .f32⟩
  | .hbm, ⟨33, _⟩ => ⟨S_, .f32⟩
  | .hbm, ⟨34, _⟩ => ⟨S4096x1536, .f32⟩
  | .hbm, ⟨35, _⟩ => ⟨S4096x1536, .f32⟩
  | .hbm, ⟨36, _⟩ => ⟨S4096x2048, .f32⟩
  | .hbm, ⟨37, _⟩ => ⟨S_, .i32⟩
  | .hbm, ⟨38, _⟩ => ⟨S49152, .i32⟩
  | .hbm, ⟨39, _⟩ => ⟨S49152, .i1⟩
  | .hbm, ⟨40, _⟩ => ⟨S_, .i32⟩
  | .hbm, ⟨41, _⟩ => ⟨S49152, .i32⟩
  | .hbm, ⟨42, _⟩ => ⟨S49152, .i32⟩
  | .hbm, ⟨43, _⟩ => ⟨S49152, .i32⟩
  | .hbm, ⟨44, _⟩ => ⟨S49152x1, .i32⟩
  | .hbm, ⟨45, _⟩ => ⟨S4096x49152, .f32⟩
  | .hbm, ⟨46, _⟩ => ⟨S1x49152, .f32⟩
  | .hbm, ⟨47, _⟩ => ⟨S4096x49152, .f32⟩
  | .hbm, ⟨48, _⟩ => ⟨S4096x49152, .f32⟩
  | .hbm, ⟨49, _⟩ => ⟨S_, .f32⟩
  | .hbm, ⟨50, _⟩ => ⟨S4096x1536, .f32⟩
  | .hbm, ⟨51, _⟩ => ⟨S_, .i32⟩
  | .hbm, ⟨52, _⟩ => ⟨S49152, .i32⟩
  | .hbm, ⟨53, _⟩ => ⟨S49152, .i1⟩
  | .hbm, ⟨54, _⟩ => ⟨S_, .i32⟩
  | .hbm, ⟨55, _⟩ => ⟨S49152, .i32⟩
  | .hbm, ⟨56, _⟩ => ⟨S49152, .i32⟩
  | .hbm, ⟨57, _⟩ => ⟨S49152, .i32⟩
  | .hbm, ⟨58, _⟩ => ⟨S49152x1, .i32⟩
  | .hbm, ⟨59, _⟩ => ⟨S4096x1536, .f32⟩
  | .hbm, ⟨60, _⟩ => ⟨S_, .f32⟩
  | .hbm, ⟨61, _⟩ => ⟨S4096x1536, .f32⟩
  | .hbm, ⟨62, _⟩ => ⟨S4096x1536, .f32⟩
  | .hbm, ⟨63, _⟩ => ⟨S4096x3584, .f32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S4096x16384, .f32⟩
  | .hbm, ⟨73, _⟩ => ⟨S1x16384, .f32⟩
  | .hbm, ⟨74, _⟩ => ⟨S4096x16384, .f32⟩
  | .hbm, ⟨75, _⟩ => ⟨S4096x16384, .f32⟩
  | .hbm, ⟨76, _⟩ => ⟨S_, .f32⟩
  | .hbm, ⟨77, _⟩ => ⟨S4096x512, .f32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S4096x512, .f32⟩
  | .hbm, ⟨87, _⟩ => ⟨S_, .f32⟩
  | .hbm, ⟨88, _⟩ => ⟨S4096x512, .f32⟩
  | .hbm, ⟨89, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_cst : Ref sig .tc := ⟨.hbm, 60, rfl⟩
abbrev main_call1_v0 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_cst : Ref sig .tc := ⟨.hbm, 87, rfl⟩
abbrev main_call2_v0 : Ref sig .tc := ⟨.hbm, 88, rfl⟩
abbrev main_v58 : Ref sig .tc := ⟨.hbm, 89, rfl⟩

abbrev nD : Nat := 1
abbrev τ : Topo := Topo.v7x

variable {F : FTy → Type} [FloatOps F]

class Facts₀ : Prop where
  bcast_S_S49152 : S_.BroadcastsInDim S49152 (![] : Fin 0 → Fin S49152.rank)
  bcast_S49152_S49152x1_0 : S49152.BroadcastsInDim S49152x1 (![0] : Fin 1 → Fin S49152x1.rank)
  bcast_S49152_S1x49152_1 : S49152.BroadcastsInDim S1x49152 (![1] : Fin 1 → Fin S1x49152.rank)
  bcast_S1x49152_S4096x49152_0_1 : S1x49152.BroadcastsInDim S4096x49152 (![0, 1] : Fin 2 → Fin S4096x49152.rank)
  bcast_S_S4096x1536 : S_.BroadcastsInDim S4096x1536 (![] : Fin 0 → Fin S4096x1536.rank)
  concatenates_S4096x512_S4096x1536_S4096x2048_d1 : Shape.Concatenates [S4096x512, S4096x1536] S4096x2048 1
  concatenates_S4096x2048_S4096x1536_S4096x3584_d1 : Shape.Concatenates [S4096x2048, S4096x1536] S4096x3584 1
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x512 : S_.BroadcastsInDim S4096x512 (![] : Fin 0 → Fin S4096x512.rank)
  gather_S4096x512_S49152x1_S4096x49152_0_1_n_n_1_1_40961_wf : GatherDims.WF S4096x512 S49152x1 S4096x49152 [0] [1] [] [1] [] 1 ![4096, 1]
  scatter_S4096x1536_S49152x1_S4096x49152_0_1_1_1_wf : ScatterDims.WF S4096x1536 S49152x1 S4096x49152 [0] [1] [1] 1
  gather_S4096x2048_S49152x1_S4096x49152_0_1_n_n_1_1_40961_wf : GatherDims.WF S4096x2048 S49152x1 S4096x49152 [0] [1] [] [1] [] 1 ![4096, 1]
  gather_S4096x3584_S16384x1_S4096x16384_0_1_n_n_1_1_40961_wf : GatherDims.WF S4096x3584 S16384x1 S4096x16384 [0] [1] [] [1] [] 1 ![4096, 1]
  scatter_S4096x512_S16384x1_S4096x16384_0_1_1_1_wf : ScatterDims.WF S4096x512 S16384x1 S4096x16384 [0] [1] [1] 1

variable [Facts₀]

def gather_S4096x512_S49152x1_S4096x49152_0_1_n_n_1_1_40961 : GatherDims S4096x512 S49152x1 S4096x49152 where
  offsetDims := [0]
  collapsedSliceDims := [1]
  operandBatchingDims := []
  startIndicesBatchingDims := []
  startIndexMap := [1]
  indexVectorDim := 1
  sliceSizes := ![4096, 1]
  wf := gather_S4096x512_S49152x1_S4096x49152_0_1_n_n_1_1_40961_wf
def scatter_S4096x1536_S49152x1_S4096x49152_0_1_1_1 : ScatterDims S4096x1536 S49152x1 S4096x49152 where
  updateWindowDims := [0]
  insertedWindowDims := [1]
  scatterDimsToOperandDims := [1]
  indexVectorDim := 1
  wf := scatter_S4096x1536_S49152x1_S4096x49152_0_1_1_1_wf
def gather_S4096x2048_S49152x1_S4096x49152_0_1_n_n_1_1_40961 : GatherDims S4096x2048 S49152x1 S4096x49152 where
  offsetDims := [0]
  collapsedSliceDims := [1]
  operandBatchingDims := []
  startIndicesBatchingDims := []
  startIndexMap := [1]
  indexVectorDim := 1
  sliceSizes := ![4096, 1]
  wf := gather_S4096x2048_S49152x1_S4096x49152_0_1_n_n_1_1_40961_wf
def gather_S4096x3584_S16384x1_S4096x16384_0_1_n_n_1_1_40961 : GatherDims S4096x3584 S16384x1 S4096x16384 where
  offsetDims := [0]
  collapsedSliceDims := [1]
  operandBatchingDims := []
  startIndicesBatchingDims := []
  startIndexMap := [1]
  indexVectorDim := 1
  sliceSizes := ![4096, 1]
  wf := gather_S4096x3584_S16384x1_S4096x16384_0_1_n_n_1_1_40961_wf
def scatter_S4096x512_S16384x1_S4096x16384_0_1_1_1 : ScatterDims S4096x512 S16384x1 S4096x16384 where
  updateWindowDims := [0]
  insertedWindowDims := [1]
  scatterDimsToOperandDims := [1]
  indexVectorDim := 1
  wf := scatter_S4096x512_S16384x1_S4096x16384_0_1_1_1_wf

class Facts : Prop extends Facts₀ where

variable [Facts]
-- ==== Proof.Domain.lean ====
import proofs.«412913_j33715493274267_3_alg».proof.Pre_finite_inputs
import proofs.«412913_j33715493274267_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Domain

open Idealize.ShloMosaic Cert.Pre_finite_inputs

/-- The rank-0 shape has one index. -/
instance subsingleton_idx0 : Subsingleton (⟨0, ![]⟩ : Shape).Idx := ⟨fun a b => funext fun d => d.elim0⟩

/-- The word 0x7F800000 denotes the top of the extended reals. -/
theorem ofBits_inf : Ideal.ofBits .f32 0x7F800000#32 = (⊤ : EReal) := by
  simp [Ideal.ofBits, Ideal.ieee]

/-- An extended real whose absolute value is strictly below the top is a real number. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- A float vector every element of which passes "absolute value below infinity" has only real entries. -/
theorem real_of_all {s : Shape} (v c : FVec Ideal s .f32) (hc : ∀ i, c i = Ideal.ofBits .f32 0x7F800000#32)
    (h : ∀ i, cmpf .olt (Host.absf v) c i = 1#1) (i : s.Idx) : ∃ r : ℝ, v i = (r : EReal) := by
  have hi := h i
  rw [ValueIdx.cmpf_apply, hc i, ofBits_inf] at hi
  exact real_of_abs_lt_top (v i) hi

/-- An integer vector every element of which passes "at least 0 and below N" lies in the range, read signed. -/
theorem range_of_all {s : Shape} (v lo hi : IVec s 32) (N : BitVec 32) (n : Int) (hN : N.toInt = n)
    (hlo : ∀ i, lo i = 0#32) (hhi : ∀ i, hi i = N)
    (h : ∀ i, andi (cmpi .sge v lo) (cmpi .slt v hi) i = 1#1) (i : s.Idx) :
    0 ≤ (v i).toInt ∧ (v i).toInt < n := by
  obtain ⟨h1, h2⟩ := IntOp.andi_eq_one.1 (show IntOp.andi (IntOp.cmpi .sge (v i) (lo i)) (IntOp.cmpi .slt (v i) (hi i)) = 1#1 from h i)
  rw [hlo i, IntOp.cmpi_sge] at h1
  rw [hhi i, IntOp.cmpi_slt, hN] at h2
  exact ⟨by simpa using h1, h2⟩

/-- A conjunction of two one-bit vectors that is 1 at an index has both 1 there. -/
theorem andi_split {s : Shape} (a b : IVec s 1) (j : s.Idx) (h : andi a b j = 1#1) : a j = 1#1 ∧ b j = 1#1 :=
  IntOp.andi_eq_one.1 h

/-- What the precondition says of the inputs, entry by entry: every entry of x and of the three weight vectors is a
    real number, and every source index of the three levels names a node of its level's source range. -/
theorem of_pre [Cert.Pre_finite_inputs.Facts]
    (x : FVec Ideal S4096x512 .f32) (s0 d0 : IVec S49152 32) (w0 : FVec Ideal S49152 .f32)
    (s1 d1 : IVec S49152 32) (w1 : FVec Ideal S49152 .f32)
    (s2 d2 : IVec S16384 32) (w2 : FVec Ideal S16384 .f32)
    (h : Cert.Pre_finite_inputs.fn (F := Ideal) x s0 d0 w0 s1 d1 w1 s2 d2 w2 = fun _ => 1#1) :
    (∀ i, ∃ r : ℝ, x i = (r : EReal)) ∧ (∀ e, ∃ r : ℝ, w0 e = (r : EReal))
      ∧ (∀ e, ∃ r : ℝ, w1 e = (r : EReal)) ∧ (∀ e, ∃ r : ℝ, w2 e = (r : EReal))
      ∧ (∀ e, 0 ≤ (s0 e).toInt ∧ (s0 e).toInt < 512)
      ∧ (∀ e, 0 ≤ (s1 e).toInt ∧ (s1 e).toInt < 2048)
      ∧ (∀ e, 0 ≤ (s2 e).toInt ∧ (s2 e).toInt < 3584) := by
  -- the scalar result at its one index is the conjunction of the seven tests, nested to the left
  have h0 := congrFun h ValueIdx.ix0
  simp only [fn, fn_part1, fn_part2] at h0
  obtain ⟨h0, hs2⟩ := andi_split _ _ _ h0
  obtain ⟨h0, hs1⟩ := andi_split _ _ _ h0
  obtain ⟨h0, hs0⟩ := andi_split _ _ _ h0
  obtain ⟨h0, hw2⟩ := andi_split _ _ _ h0
  obtain ⟨h0, hw1⟩ := andi_split _ _ _ h0
  obtain ⟨hx, hw0⟩ := andi_split _ _ _ h0
  -- each test is a conjunction over all entries, so it holds at every entry; read each entry's test back
  refine ⟨?_, ?_, ?_, ?_, ?_, ?_, ?_⟩
  · exact real_of_all x _ (fun _ => rfl) (Host.reduce_andi_all _ _ _ _ _ hx)
  · exact real_of_all w0 _ (fun _ => rfl) (Host.reduce_andi_all _ _ _ _ _ hw0)
  · exact real_of_all w1 _ (fun _ => rfl) (Host.reduce_andi_all _ _ _ _ _ hw1)
  · exact real_of_all w2 _ (fun _ => rfl) (Host.reduce_andi_all _ _ _ _ _ hw2)
  · exact range_of_all s0 _ _ 512#32 512 (by decide) (fun _ => rfl) (fun _ => rfl) (Host.reduce_andi_all _ _ _ _ _ hs0)
  · exact range_of_all s1 _ _ 2048#32 2048 (by decide) (fun _ => rfl) (fun _ => rfl) (Host.reduce_andi_all _ _ _ _ _ hs1)
  · exact range_of_all s2 _ _ 3584#32 3584 (by decide) (fun _ => rfl) (fun _ => rfl) (Host.reduce_andi_all _ _ _ _ _ hs2)

end Cert.Domain

end
-- ==== Proof.EdgeSum.lean ====
import Idealize.ShloMosaic.PureOps.Ideal
import Mathlib.Algebra.BigOperators.Fin

/-!
The algebra of one message-passing level, over the reals and abstract finite index types.

An edge `e` carries a weight `w e`, reads source node `src e` and lands on the destination nodes it is
related to by `P`. Summing the edges' contributions `nv (src e) * w e` one by one is the same as first
collecting the weights into a dense matrix `M s = ∑ over the edges with source s, w e` and then
contracting the node values against it: multiplication distributes over the inner sum, and for a fixed
edge exactly one source node is its own.
-/

noncomputable section

namespace Cert.EdgeSum

open Finset

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dense form equals edge form: contracting node values against the collected weight matrix is the sum
    over the landing edges of (the source's value) × (the edge's weight). -/
theorem dense_eq_edges {E S : Type*} [Fintype E] [Fintype S] [DecidableEq S]
    (nv : S → ℝ) (src : E → S) (P : E → Prop) [DecidablePred P] (w : E → ℝ) :
    ∑ s, nv s * ∑ e ∈ univ.filter (fun e => src e = s ∧ P e), w e
      = ∑ e ∈ univ.filter P, nv (src e) * w e := by
  simp_rw [Finset.mul_sum, Finset.sum_filter]
  rw [Finset.sum_comm]
  refine Finset.sum_congr rfl fun e _ => ?_
  by_cases hP : P e
  · simp [hP, Finset.sum_ite_eq]
  · simp [hP]

/-- The rectified value of a real, read in the extended reals, is the extended maximum with zero. -/
theorem coe_relu (a : ℝ) : max (a : EReal) 0 = ((max a 0 : ℝ) : EReal) := by
  rw [← EReal.coe_zero]
  exact (EReal.coe_strictMono.monotone.map_max).symm

end Cert.EdgeSum

end
-- ==== Proof.LevelSpec.lean ====
import proofs.«412913_j33715493274267_3_alg».proof.Proof.EdgeSum

/-!
The network as a function of ONE batch row, over the reals.

Every operation of both programs acts on the batch rows independently, so the result row `b` is a function
of input row `b` alone. A level takes the row of node values known so far, and for each destination node
`q` sums, over the edges landing on `q`, (the value at the edge's source) × (the edge's weight), then
rectifies. The next level sees the earlier values with the new ones appended.
-/

noncomputable section

namespace Cert.LevelSpec

open Finset

/-- One level on a row `r` of node values: edge `e` reads node `s e`, weighs it by `w e`, and lands on the
    destination whose number is `dn e` (an integer: an edge whose number names no node lands nowhere). -/
def level {N D E : ℕ} (s : Fin E → Fin N) (dn : Fin E → ℤ) (w : Fin E → ℝ) (r : Fin N → ℝ) (q : Fin D) : ℝ :=
  max (∑ e ∈ univ.filter (fun e => dn e = (q.val : ℤ)), r (s e) * w e) 0

/-- The dense weight matrix of a level: entry (k, q) collects the weights of the edges from `k` to `q`. -/
def dense {N D E : ℕ} (s : Fin E → Fin N) (dn : Fin E → ℤ) (w : Fin E → ℝ) (k : Fin N) (q : Fin D) : ℝ :=
  ∑ e ∈ univ.filter (fun e => s e = k ∧ dn e = (q.val : ℤ)), w e

/-- A level is the rectified contraction of the row against the level's dense matrix. -/
theorem level_eq_dense {N D E : ℕ} (s : Fin E → Fin N) (dn : Fin E → ℤ) (w : Fin E → ℝ) (r : Fin N → ℝ) (q : Fin D) :
    level s dn w r q = max (∑ k, r k * dense s dn w k q) 0 := by
  unfold level dense
  rw [Cert.EdgeSum.dense_eq_edges r s (fun e => dn e = (q.val : ℤ)) w]

/-- Two rows laid end to end. -/
def append {a b n : ℕ} (h : a + b = n) (u : Fin a → ℝ) (v : Fin b → ℝ) (k : Fin n) : ℝ :=
  if hk : k.val < a then u ⟨k.val, hk⟩ else v ⟨k.val - a, by omega⟩

theorem append_left {a b n : ℕ} (h : a + b = n) (u : Fin a → ℝ) (v : Fin b → ℝ) (i : Fin a) :
    append h u v ⟨i.val, by omega⟩ = u i := by
  unfold append; rw [dif_pos i.isLt]

theorem append_right {a b n : ℕ} (h : a + b = n) (u : Fin a → ℝ) (v : Fin b → ℝ) (j : Fin b) :
    append h u v ⟨a + j.val, by omega⟩ = v j := by
  unfold append
  rw [dif_neg (by simp)]
  congr 1; apply Fin.ext; simp

/-- A sum over a row of length a + b splits at a. -/
theorem sum_split {a b n : ℕ} (h : a + b = n) (f : Fin n → ℝ) :
    ∑ k, f k = ∑ i : Fin a, f ⟨i.val, by omega⟩ + ∑ j : Fin b, f ⟨a + j.val, by omega⟩ := by
  subst h
  rw [Fin.sum_univ_add]
  rfl

/-- The three levels on an input row `x`: 512 inputs, 1536 + 1536 hidden nodes, 512 outputs. -/
def net (s0 : Fin 49152 → Fin 512) (d0 : Fin 49152 → ℤ) (w0 : Fin 49152 → ℝ)
    (s1 : Fin 49152 → Fin 2048) (d1 : Fin 49152 → ℤ) (w1 : Fin 49152 → ℝ)
    (s2 : Fin 16384 → Fin 3584) (d2 : Fin 16384 → ℤ) (w2 : Fin 16384 → ℝ)
    (x : Fin 512 → ℝ) : Fin 512 → ℝ :=
  let h1 : Fin 1536 → ℝ := level s0 d0 w0 x
  let nv2 : Fin 2048 → ℝ := append (by norm_num : 512 + 1536 = 2048) x h1
  let h2 : Fin 1536 → ℝ := level s1 d1 w1 nv2
  let nv3 : Fin 3584 → ℝ := append (by norm_num : 2048 + 1536 = 3584) nv2 h2
  level s2 d2 w2 nv3

end Cert.LevelSpec

end
-- ==== Proof.Edges.lean ====
import proofs.«412913_j33715493274267_3_alg».proof.Proof.LevelSpec
import Idealize.ShloMosaic.Lib.ValueIdx

/-!
An edge's two ends, read off the index vectors the programs compute.

Both programs first normalise an index vector (a negative number has the axis length added). What the
reference's gather then reads is that number clamped into the node range, so as a NODE the source of an edge
is always defined; the destination stays a NUMBER, since an edge whose destination number names no node is
dropped by the scatter of either program.
-/

noncomputable section

namespace Cert.Edges

open Idealize.ShloMosaic Idealize.ShloMosaic.ValueIdx

/-- The source node of edge `e`: its normalised source number, read signed and clamped into [0, N). -/
def srcNode {E : ℕ} (N : ℕ) (hN : 0 < N) (ns : IVec ⟨1, ![E]⟩ 32) (e : Fin E) : Fin N :=
  ⟨min (ns (ix1 e)).toInt.toNat (N - 1), by omega⟩

/-- The destination number of edge `e`: its normalised destination number, read signed. -/
def dstNum {E : ℕ} (nd : IVec ⟨1, ![E]⟩ 32) (e : Fin E) : ℤ := (nd (ix1 e)).toInt

/-- A source number already inside the node range is its own node. -/
theorem srcNode_val {E : ℕ} (N : ℕ) (hN : 0 < N) (ns : IVec ⟨1, ![E]⟩ 32) (e : Fin E)
    (h : 0 ≤ (ns (ix1 e)).toInt ∧ (ns (ix1 e)).toInt < N) :
    ((srcNode N hN ns e).val : ℤ) = (ns (ix1 e)).toInt := by
  unfold srcNode
  simp only
  omega

end Cert.Edges

end
-- ==== Proof.Normalise.lean ====
import proofs.«412913_j33715493274267_3_alg».proof.Proof.Edges
import Idealize.ShloMosaic.Lib.StableHlo.Predicate

/-!
The index normalisation both programs apply before indexing: an entry below zero has the axis length added,
any other entry is kept. On an entry that is not negative it is therefore the identity, which is the only fact
the proof uses of it for the SOURCE indices (the precondition bounds them); for the DESTINATION indices the two
programs apply it alike, and it is carried as it stands.
-/

noncomputable section

namespace Cert.Normalise

open Idealize.ShloMosaic Idealize.ShloMosaic.ValueIdx

/-- `v` with the axis length `len` added where `v` is negative. -/
def nrm {E : ℕ} (hb : (⟨0, ![]⟩ : Shape).BroadcastsInDim ⟨1, ![E]⟩ (![] : Fin 0 → Fin 1)) (len : BitVec 32)
    (v : IVec ⟨1, ![E]⟩ 32) : IVec ⟨1, ![E]⟩ 32 :=
  select (cmpi .slt v (broadcastInDim ⟨1, ![E]⟩ ![] hb (constantI ⟨0, ![]⟩ 32 0#32)))
    (addi v (broadcastInDim ⟨1, ![E]⟩ ![] hb (constantI ⟨0, ![]⟩ 32 len))) v

/-- On an entry that is not negative the normalisation keeps the entry. -/
theorem nrm_of_nonneg {E : ℕ} (hb : (⟨0, ![]⟩ : Shape).BroadcastsInDim ⟨1, ![E]⟩ (![] : Fin 0 → Fin 1))
    (len : BitVec 32) (v : IVec ⟨1, ![E]⟩ 32) (e : Fin E) (h : 0 ≤ (v (ix1 e)).toInt) :
    nrm hb len v (ix1 e) = v (ix1 e) := by
  unfold nrm
  rw [select_apply]
  have hz : (broadcastInDim ⟨1, ![E]⟩ ![] hb (constantI ⟨0, ![]⟩ 32 0#32) : IVec ⟨1, ![E]⟩ 32) (ix1 e) = 0#32 :=
    StableHlo.Predicate.bcast_scalar hb (by decide) _ _
  have hc : (cmpi .slt v (broadcastInDim ⟨1, ![E]⟩ ![] hb (constantI ⟨0, ![]⟩ 32 0#32)) : IVec ⟨1, ![E]⟩ 1) (ix1 e)
      = 0#1 := by
    show IntOp.cmpi .slt (v (ix1 e)) _ = 0#1
    rw [hz]
    show BitVec.ofBool ((v (ix1 e)).slt 0#32) = 0#1
    have : (v (ix1 e)).slt 0#32 = false := by
      rw [BitVec.slt_eq_decide]
      simp only [BitVec.toInt_zero, decide_eq_false_iff_not, not_lt]
      exact h
    rw [this]; rfl
  rw [hc]
  exact select_zero _ _

end Cert.Normalise

end
-- ==== Proof.KernelMatrixA.lean ====
import proofs.«412913_j33715493274267_3_alg».proof.Proof.Gen.KernelIdeal.Frame
import proofs.«412913_j33715493274267_3_alg».proof.Proof.Normalise
import Idealize.ShloMosaic.Lib.StableHlo.Run

/-!
What the region finds in the first staged matrix buffer.

Before the region the program builds each level's dense matrix on the host: a zero matrix, the level's source and
destination index vectors normalised and laid side by side as pairs, and one scatter-add of the level's weights
at those pairs. This module reads that off the host operations for the first level.
-/

noncomputable section

namespace Cert.KernelMatrices

open Cert.KernelIdeal Cert.KernelIdeal.Gen Idealize.ShloMosaic Idealize.ShloMosaic.TcCoe Idealize.SL.Sem
open Idealize.ShloMosaic.StableHlo Idealize.ShloMosaic.ValueIdx Cert.Normalise

variable (m : (ℓ : Loc nD τ sig) → Buf (Elt Ideal) ℓ)

set_option maxHeartbeats 2000000 in
/-- The first matrix's buffer: the first level's weights scatter-added at the normalised (source, destination) pairs into a zero matrix. -/
theorem m0_term (c : Dev nD) :
    (V m c main_v14 : S512x1536.Idx → EReal)
      = Host.scatterAdd scatter_S512x1536_S49152x2_S49152_n_01_01_1
          (broadcastInDim S512x1536 ![] bcast_S_S512x1536 (constant (F := Ideal) S_ .f32 0x00000000#32))
          (concatenate S49152x2 1
            [⟨S49152x1, broadcastInDim S49152x1 ![0] bcast_S49152_S49152x1_0
                (nrm bcast_S_S49152 512#32 (m ((c.tc : Thread nD τ).loc main_arg1)))⟩,
             ⟨S49152x1, broadcastInDim S49152x1 ![0] bcast_S49152_S49152x1_0
                (nrm bcast_S_S49152 1536#32 (m ((c.tc : Thread nD τ).loc main_arg2)))⟩]
            concatenates_S49152x1_S49152x1_S49152x2_d1)
          (m ((c.tc : Thread nD τ).loc main_arg3)) := by
  dsimp only [Gen.V, Gen.hostOps0]
  after_results
  rfl

end Cert.KernelMatrices

end
-- ==== Proof.KernelMatrixB.lean ====
import proofs.«412913_j33715493274267_3_alg».proof.Proof.Gen.KernelIdeal.Frame
import proofs.«412913_j33715493274267_3_alg».proof.Proof.Normalise
import Idealize.ShloMosaic.Lib.StableHlo.Run

/-!
What the region finds in the second staged matrix buffer.

Before the region the program builds each level's dense matrix on the host: a zero matrix, the level's source and
destination index vectors normalised and laid side by side as pairs, and one scatter-add of the level's weights
at those pairs. This module reads that off the host operations for the second level.
-/

noncomputable section

namespace Cert.KernelMatrices

open Cert.KernelIdeal Cert.KernelIdeal.Gen Idealize.ShloMosaic Idealize.ShloMosaic.TcCoe Idealize.SL.Sem
open Idealize.ShloMosaic.StableHlo Idealize.ShloMosaic.ValueIdx Cert.Normalise

variable (m : (ℓ : Loc nD τ sig) → Buf (Elt Ideal) ℓ)

set_option maxHeartbeats 6000000 in
/-- The second matrix's buffer: the second level's weights at their pairs. -/
theorem m1_term (c : Dev nD) :
    (V m c main_v29 : S2048x1536.Idx → EReal)
      = Host.scatterAdd scatter_S2048x1536_S49152x2_S49152_n_01_01_1
          (broadcastInDim S2048x1536 ![] bcast_S_S2048x1536 (constant (F := Ideal) S_ .f32 0x00000000#32))
          (concatenate S49152x2 1
            [⟨S49152x1, broadcastInDim S49152x1 ![0] bcast_S49152_S49152x1_0
                (nrm bcast_S_S49152 2048#32 (m ((c.tc : Thread nD τ).loc main_arg4)))⟩,
             ⟨S49152x1, broadcastInDim S49152x1 ![0] bcast_S49152_S49152x1_0
                (nrm bcast_S_S49152 1536#32 (m ((c.tc : Thread nD τ).loc main_arg5)))⟩]
            concatenates_S49152x1_S49152x1_S49152x2_d1)
          (m ((c.tc : Thread nD τ).loc main_arg6)) := by
  dsimp only [Gen.V, Gen.hostOps0]
  after_results
  rfl

end Cert.KernelMatrices

end
-- ==== Proof.KernelMatrixC.lean ====
import proofs.«412913_j33715493274267_3_alg».proof.Proof.Gen.KernelIdeal.Frame
import proofs.«412913_j33715493274267_3_alg».proof.Proof.Normalise
import Idealize.ShloMosaic.Lib.StableHlo.Run

/-!
What the region finds in the third staged matrix buffer.

Before the region the program builds each level's dense matrix on the host: a zero matrix, the level's source and
destination index vectors normalised and laid side by side as pairs, and one scatter-add of the level's weights
at those pairs. This module reads that off the host operations for the third level.
-/

noncomputable section

namespace Cert.KernelMatrices

open Cert.KernelIdeal Cert.KernelIdeal.Gen Idealize.ShloMosaic Idealize.ShloMosaic.TcCoe Idealize.SL.Sem
open Idealize.ShloMosaic.StableHlo Idealize.ShloMosaic.ValueIdx Cert.Normalise

variable (m : (ℓ : Loc nD τ sig) → Buf (Elt Ideal) ℓ)

set_option maxHeartbeats 12000000 in
/-- The third matrix's buffer: the third level's weights at their pairs. -/
theorem m2_term (c : Dev nD) :
    (V m c main_v44 : S3584x512.Idx → EReal)
      = Host.scatterAdd scatter_S3584x512_S16384x2_S16384_n_01_01_1
          (broadcastInDim S3584x512 ![] bcast_S_S3584x512 (constant (F := Ideal) S_ .f32 0x00000000#32))
          (concatenate S16384x2 1
            [⟨S16384x1, broadcastInDim S16384x1 ![0] bcast_S16384_S16384x1_0
                (nrm bcast_S_S16384 3584#32 (m ((c.tc : Thread nD τ).loc main_arg7)))⟩,
             ⟨S16384x1, broadcastInDim S16384x1 ![0] bcast_S16384_S16384x1_0
                (nrm bcast_S_S16384 512#32 (m ((c.tc : Thread nD τ).loc main_arg8)))⟩]
            concatenates_S16384x1_S16384x1_S16384x2_d1)
          (m ((c.tc : Thread nD τ).loc main_arg9)) := by
  dsimp only [Gen.V, Gen.hostOps0]
  after_results
  rfl

end Cert.KernelMatrices

end
-- ==== Proof.RowForms.lean ====
import proofs.«412913_j33715493274267_3_alg».proof.Proof.LevelSpec

/-!
The two programs on ONE batch row, over the extended reals, in the shapes their operations give.

The kernel contracts the row against three dense matrices; the second and third contractions are split
where the row of node values was appended (the first 512 columns against the input row, the next 1536
against the first hidden row, the last 1536 against the second hidden row). The reference sums edge by
edge; its scatter starts from a zero array, hence the leading zero.
-/

noncomputable section

namespace Cert.RowForms

open Finset

/-! ## The kernel's row -/

def kH1 (X : Fin 512 → EReal) (M0 : Fin 512 → Fin 1536 → EReal) (j : Fin 1536) : EReal :=
  max (∑ k : Fin 512, X k * M0 k j) 0

def kH2 (X : Fin 512 → EReal) (H1 : Fin 1536 → EReal) (M1 : Fin 2048 → Fin 1536 → EReal) (j : Fin 1536) : EReal :=
  max ((∑ k : Fin 512, X k * M1 ⟨k.val, by omega⟩ j) + ∑ k : Fin 1536, H1 k * M1 ⟨512 + k.val, by omega⟩ j) 0

def kOut (X : Fin 512 → EReal) (H1 H2 : Fin 1536 → EReal) (M2 : Fin 3584 → Fin 512 → EReal) (q : Fin 512) : EReal :=
  max (((∑ k : Fin 512, X k * M2 ⟨k.val, by omega⟩ q) + ∑ k : Fin 1536, H1 k * M2 ⟨512 + k.val, by omega⟩ q)
    + ∑ k : Fin 1536, H2 k * M2 ⟨2048 + k.val, by omega⟩ q) 0

def kNet (X : Fin 512 → EReal) (M0 : Fin 512 → Fin 1536 → EReal) (M1 : Fin 2048 → Fin 1536 → EReal)
    (M2 : Fin 3584 → Fin 512 → EReal) : Fin 512 → EReal :=
  kOut X (kH1 X M0) (kH2 X (kH1 X M0) M1) M2

/-! ## The reference's row -/

/-- One level of the reference on a row `R`: zero, plus the sum over the edges landing on `q` of
    (the value at the edge's source) × (the edge's weight); rectified. -/
def rLevel {N D E : ℕ} (s : Fin E → Fin N) (dn : Fin E → ℤ) (W : Fin E → EReal) (R : Fin N → EReal) (q : Fin D) : EReal :=
  max (0 + ∑ e ∈ univ.filter (fun e => dn e = (q.val : ℤ)), R (s e) * W e) 0

/-- Two rows laid end to end. -/
def rAppend {a b n : ℕ} (h : a + b = n) (u : Fin a → EReal) (v : Fin b → EReal) (k : Fin n) : EReal :=
  if hk : k.val < a then u ⟨k.val, hk⟩ else v ⟨k.val - a, by omega⟩

def rNet (s0 : Fin 49152 → Fin 512) (d0 : Fin 49152 → ℤ) (W0 : Fin 49152 → EReal)
    (s1 : Fin 49152 → Fin 2048) (d1 : Fin 49152 → ℤ) (W1 : Fin 49152 → EReal)
    (s2 : Fin 16384 → Fin 3584) (d2 : Fin 16384 → ℤ) (W2 : Fin 16384 → EReal)
    (X : Fin 512 → EReal) : Fin 512 → EReal :=
  let h1 : Fin 1536 → EReal := rLevel s0 d0 W0 X
  let nv2 : Fin 2048 → EReal := rAppend (by norm_num : 512 + 1536 = 2048) X h1
  let h2 : Fin 1536 → EReal := rLevel s1 d1 W1 nv2
  let nv3 : Fin 3584 → EReal := rAppend (by norm_num : 2048 + 1536 = 3584) nv2 h2
  rLevel s2 d2 W2 nv3

end Cert.RowForms

end
-- ==== Proof.PlainDot.lean ====
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

section Axes
variable {M K N : Nat} (d : DotDims ⟨2, ![M, K]⟩ ⟨2, ![K, N]⟩ ⟨2, ![M, N]⟩)

/-- With one contracted axis on the left, the contraction's index shape has exactly one axis. -/
theorem contr_rank (hlc : d.lhsContracting = [1]) : d.contr.rank = 1 := by
  rw [d.rank_contr, hlc]; rfl

/-- That one axis has the extent of the left operand's columns, K. -/
theorem contr_size (hlc : d.lhsContracting = [1]) :
    d.contr.size ⟨0, by rw [contr_rank d hlc]; exact Nat.one_pos⟩ = K := by
  have h0 : 0 < d.lhsContracting.length := by rw [hlc]; exact Nat.one_pos
  rw [d.size_contr 0 h0, List.getElem_of_eq hlc]
  rfl

/-- The left operand's row coordinate is the result's row coordinate: axis 0 of the left is its only free axis, and
    with no batch axes it sits at position 0 + 0 among the result's axes. -/
theorem lhs_row (hln : d.lhsNonContracting = [0]) (hlb : d.lhsBatch = [])
    (j : (⟨2, ![M, N]⟩ : Shape).Idx) (k : d.contr.Idx) :
    (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- The right operand's column coordinate is the result's column coordinate: axis 1 of the right is its only free
    axis, and it sits after the left's one free axis, at position 0 + 1 + 0 among the result's axes. -/
theorem rhs_col (hln : d.lhsNonContracting = [0]) (hrn : d.rhsNonContracting = [1])
    (hlb : d.lhsBatch = []) (hrb : d.rhsBatch = [])
    (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

end Axes

/-- A matrix product of plain dimension numbers ([M, K] by [K, N], the left operand contracted on its columns and
    the right on its rows) into the zero accumulator, read at row p and column q, is the sum over the contracted
    position k of (row p of the left at k) × (column q of the right at k). -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant (F := Ideal) ⟨2, ![M, N]⟩ .f32 0x00000000#32) (ix2 p q)
      = ∑ k : Fin K, lhs (ix2 p k) * rhs (ix2 k q) := by
  have hrk := contr_rank d hlc
  have hsz := contr_size d hlc
  -- the product into the zero accumulator is the sum over the contraction's index shape
  show FloatOps.matmul d prec lhs rhs (constant (F := Ideal) ⟨2, ![M, N]⟩ .f32 0x00000000#32) (ix2 p q) = _
  rw [Ideal.matmul_constant_zero_apply]
  -- that shape has one axis of extent K: sum over its one coordinate instead
  rw [← Equiv.sum_comp (contrEquiv1 d K hrk hsz).symm]
  refine Finset.sum_congr rfl fun i _ => ?_
  -- at contraction position i the left operand is read at (p, i) …
  have hl : d.lhsIdx (ix2 p q) ((contrEquiv1 d K hrk hsz).symm i) = ix2 p i := by
    funext a
    match a with
    | ⟨0, _⟩ => exact Fin.ext (lhs_row d hln hlb _ _)
    | ⟨1, _⟩ =>
      exact Fin.ext ((d.lhsIdx_val_of_single hlc _ _).trans (contrEquiv1_symm_val d K hrk hsz i))
  -- … and the right operand at (i, q)
  have hri : d.rhsIdx (ix2 p q) ((contrEquiv1 d K hrk hsz).symm i) = ix2 i q := by
    funext a
    match a with
    | ⟨0, _⟩ =>
      exact Fin.ext ((d.rhsIdx_val_of_single hrc _ _).trans (contrEquiv1_symm_val d K hrk hsz i))
    | ⟨1, _⟩ => exact Fin.ext (rhs_col d hln hrn hlb hrb _ _)
  rw [hl, hri]

end Cert.PlainDot

end
-- ==== Proof.KernelRow.lean ====
import proofs.«412913_j33715493274267_3_alg».proof.Proof.Gen.KernelIdeal.Skeleton
import proofs.«412913_j33715493274267_3_alg».proof.Proof.RowForms
import proofs.«412913_j33715493274267_3_alg».proof.Proof.PlainDot
import Idealize.ShloMosaic.Lib.Pipeline.Value
import Idealize.ShloMosaic.Lib.ValueIdx
import Idealize.ShloMosaic.PureOps.Ideal.Laws

/-!
The kernel body's stored value, read at one entry.

The body loads a block of 512 batch rows and the three dense weight matrices whole. Entry (p, q) of what it
stores depends on row p of the block alone: the first hidden row is the rectified product of that row with the
first matrix; the second hidden row adds the product of the input row with the top 512 rows of the second
matrix and the product of the first hidden row with its remaining 1536 rows; the output does the same with the
third matrix cut at rows 512 and 2048. Each matrix product starts from a zero accumulator, so it is a plain sum
over the contracted position.
-/

noncomputable section

namespace Cert.KernelRow

open Idealize.ShloMosaic Idealize.ShloMosaic.ValueIdx Cert.KernelIdeal Cert.KernelIdeal.Gen Cert.RowForms Cert.PlainDot

/-- Rows [o, o + R) of a [T, C] array, every column: entry (k, j) of the piece is entry (o + k, j) of the array. -/
theorem slice_rows_apply {T R C : Nat} (o : Nat) (x : (⟨2, ![T, C]⟩ : Shape).Idx → EReal)
    (h : (⟨2, ![T, C]⟩ : Shape).Slices ![o, 0] ⟨2, ![R, C]⟩) (k : Fin R) (j : Fin C) (hk : o + k.val < T) :
    extractStridedSlice ⟨2, ![R, C]⟩ ![o, 0] x h (ix2 k j) = x (ix2 ⟨o + k.val, hk⟩ j) := by
  refine extractStridedSlice_apply _ x h _ _ (fun a => ?_)
  match a with
  | ⟨0, _⟩ => rfl
  | ⟨1, _⟩ => show j.val = 0 + j.val; omega

/-- The top rows [0, R): entry (k, j) of the piece is entry (k, j) of the array. -/
theorem slice_top_apply {T R C : Nat} (x : (⟨2, ![T, C]⟩ : Shape).Idx → EReal)
    (h : (⟨2, ![T, C]⟩ : Shape).Slices ![0, 0] ⟨2, ![R, C]⟩) (k : Fin R) (j : Fin C) (hk : k.val < T) :
    extractStridedSlice ⟨2, ![R, C]⟩ ![0, 0] x h (ix2 k j) = x (ix2 ⟨k.val, hk⟩ j) := by
  refine extractStridedSlice_apply _ x h _ _ (fun a => ?_)
  match a with
  | ⟨0, _⟩ => show k.val = 0 + k.val; omega
  | ⟨1, _⟩ => show j.val = 0 + j.val; omega

/-- The zero word is the number zero. -/
theorem zero_word : (Scalar.ofBits (F := Ideal) .f32 0x00000000#32 : EReal) = 0 := Ideal.ofBits_zero_f32

/-- The first hidden activations of the block: rectified (block × first matrix). -/
def hidden1 (x0 : FVec Ideal S512x512 .f32) (x1 : FVec Ideal S512x1536 .f32) : FVec Ideal S512x1536 .f32 :=
  maximumf
    (matmul dot_S512x512_S512x1536_S512x1536_1_0_0_1_n_n (some .fp32) x0
      (shapeCast S512x1536 x1 shapeCasts_S512x1536_S512x1536) (constant S512x1536 .f32 0x00000000#32))
    (broadcast S512x1536 (Scalar.ofBits .f32 0x00000000#32))

/-- The second hidden activations: rectified (block × top of the second matrix + first hidden × its rest). -/
def hidden2 (x0 : FVec Ideal S512x512 .f32) (x1 : FVec Ideal S512x1536 .f32) (x6 : FVec Ideal S2048x1536 .f32) :
    FVec Ideal S512x1536 .f32 :=
  maximumf
    (addf
      (matmul dot_S512x512_S512x1536_S512x1536_1_0_0_1_n_n (some .fp32) x0
        (extractStridedSlice S512x1536 ![0, 0] (shapeCast S2048x1536 x6 shapeCasts_S2048x1536_S2048x1536)
          slices_S2048x1536_o0_0_S512x1536) (constant S512x1536 .f32 0x00000000#32))
      (matmul dot_S512x1536_S1536x1536_S512x1536_1_0_0_1_n_n (some .fp32) (hidden1 x0 x1)
        (extractStridedSlice S1536x1536 ![512, 0] (shapeCast S2048x1536 x6 shapeCasts_S2048x1536_S2048x1536)
          slices_S2048x1536_o512_0_S1536x1536) (constant S512x1536 .f32 0x00000000#32)))
    (broadcast S512x1536 (Scalar.ofBits .f32 0x00000000#32))

/-- The stored value is the rectified sum of three products against the third matrix cut at rows 512 and 2048. -/
theorem payload_eq (x0 : FVec Ideal S512x512 .f32) (x1 : FVec Ideal S512x1536 .f32) (x6 : FVec Ideal S2048x1536 .f32)
    (x15 : FVec Ideal S3584x512 .f32) :
    k0_pay1 (F := Ideal) x0 x1 x6 x15
      = maximumf
          (addf
            (addf
              (matmul dot_S512x512_S512x512_S512x512_1_0_0_1_n_n (some .fp32) x0
                (extractStridedSlice S512x512 ![0, 0] (shapeCast S3584x512 x15 shapeCasts_S3584x512_S3584x512)
                  slices_S3584x512_o0_0_S512x512) (constant S512x512 .f32 0x00000000#32))
              (matmul dot_S512x1536_S1536x512_S512x512_1_0_0_1_n_n (some .fp32) (hidden1 x0 x1)
                (extractStridedSlice S1536x512 ![512, 0] (shapeCast S3584x512 x15 shapeCasts_S3584x512_S3584x512)
                  slices_S3584x512_o512_0_S1536x512) (constant S512x512 .f32 0x00000000#32)))
            (matmul dot_S512x1536_S1536x512_S512x512_1_0_0_1_n_n (some .fp32) (hidden2 x0 x1 x6)
              (extractStridedSlice S1536x512 ![2048, 0] (shapeCast S3584x512 x15 shapeCasts_S3584x512_S3584x512)
                slices_S3584x512_o2048_0_S1536x512) (constant S512x512 .f32 0x00000000#32)))
          (broadcast S512x512 (Scalar.ofBits .f32 0x00000000#32)) := rfl

/-- Entry (p, j) of the first hidden activations is the first hidden row of block row p. -/
theorem hidden1_apply (x0 : FVec Ideal S512x512 .f32) (x1 : FVec Ideal S512x1536 .f32) (p : Fin 512) (j : Fin 1536) :
    hidden1 x0 x1 (ix2 p j) = kH1 (fun k => x0 (ix2 p k)) (fun k j => x1 (ix2 k j)) j := by
  unfold hidden1 kH1
  rw [maximumf_apply, broadcast_apply, zero_word,
    matmul_plain_apply dot_S512x512_S512x1536_S512x1536_1_0_0_1_n_n rfl rfl rfl rfl rfl rfl, shapeCast_self]

/-- Entry (p, j) of the second hidden activations is the second hidden row of block row p. -/
theorem hidden2_apply (x0 : FVec Ideal S512x512 .f32) (x1 : FVec Ideal S512x1536 .f32) (x6 : FVec Ideal S2048x1536 .f32)
    (p : Fin 512) (j : Fin 1536) :
    hidden2 x0 x1 x6 (ix2 p j)
      = kH2 (fun k => x0 (ix2 p k)) (kH1 (fun k => x0 (ix2 p k)) (fun k j => x1 (ix2 k j))) (fun k j => x6 (ix2 k j)) j := by
  unfold hidden2 kH2
  rw [maximumf_apply, broadcast_apply, zero_word, addf_apply,
    matmul_plain_apply dot_S512x512_S512x1536_S512x1536_1_0_0_1_n_n rfl rfl rfl rfl rfl rfl,
    matmul_plain_apply dot_S512x1536_S1536x1536_S512x1536_1_0_0_1_n_n rfl rfl rfl rfl rfl rfl, shapeCast_self]
  congr 1
  congr 1
  · exact Finset.sum_congr rfl fun k _ => by rw [slice_top_apply x6 _ k j (by have := k.isLt; omega)]
  · exact Finset.sum_congr rfl fun k _ => by
      rw [hidden1_apply, slice_rows_apply 512 x6 _ k j (by have := k.isLt; omega)]

/-- Entry (p, q) of what the body stores is the kernel's row of block row p, at q. -/
theorem payload_apply (x0 : FVec Ideal S512x512 .f32) (x1 : FVec Ideal S512x1536 .f32) (x6 : FVec Ideal S2048x1536 .f32)
    (x15 : FVec Ideal S3584x512 .f32) (p q : Fin 512) :
    k0_pay1 (F := Ideal) x0 x1 x6 x15 (ix2 p q)
      = kNet (fun k => x0 (ix2 p k)) (fun k j => x1 (ix2 k j)) (fun k j => x6 (ix2 k j)) (fun k j => x15 (ix2 k j)) q := by
  rw [payload_eq]
  unfold kNet kOut
  rw [maximumf_apply, broadcast_apply, zero_word, addf_apply, addf_apply,
    matmul_plain_apply dot_S512x512_S512x512_S512x512_1_0_0_1_n_n rfl rfl rfl rfl rfl rfl,
    matmul_plain_apply dot_S512x1536_S1536x512_S512x512_1_0_0_1_n_n rfl rfl rfl rfl rfl rfl,
    matmul_plain_apply dot_S512x1536_S1536x512_S512x512_1_0_0_1_n_n rfl rfl rfl rfl rfl rfl, shapeCast_self]
  congr 1
  congr 1
  · congr 1
    · exact Finset.sum_congr rfl fun k _ => by rw [slice_top_apply x15 _ k q (by have := k.isLt; omega)]
    · exact Finset.sum_congr rfl fun k _ => by
        rw [hidden1_apply, slice_rows_apply 512 x15 _ k q (by have := k.isLt; omega)]
  · exact Finset.sum_congr rfl fun k _ => by
      rw [hidden2_apply, slice_rows_apply 2048 x15 _ k q (by have := k.isLt; omega)]

end Cert.KernelRow

end
-- ==== Proof.KernelArray.lean ====
import proofs.«412913_j33715493274267_3_alg».proof.Proof.Gen.KernelIdeal.Value
import proofs.«412913_j33715493274267_3_alg».proof.Proof.KernelRow

/-!
From one block to the whole output array.

The grid has 8 points. Point t stages rows [512 t, 512 t + 512) of the batch array and the three dense matrices
whole, and writes back rows [512 t, 512 t + 512) of the output. Since entry (p, q) of what a point stores is a
function of block row p alone, what point t writes is block t of ONE array-wide function: entry (b, q) is the
kernel's row of batch row b, at q. The 8 row blocks tile the array, so after the run the output array is that
function.
-/

noncomputable section

namespace Cert.KernelArray

open Cert.KernelIdeal Cert.KernelIdeal.Gen Cert.KernelIdeal.Value Idealize.ShloMosaic Idealize.ShloMosaic.TcCoe
open Idealize.SL.Sem Idealize.ShloMosaic.ValueIdx Cert.RowForms Cert.KernelRow
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The output array as a function of the batch array and the three matrices: entry (b, q) is the kernel's row
    of batch row b, at q. -/
def rows (X : FVec Ideal S4096x512 .f32) (A0 : FVec Ideal S512x1536 .f32) (A1 : FVec Ideal S2048x1536 .f32)
    (A2 : FVec Ideal S3584x512 .f32) : FVec Ideal S4096x512 .f32 :=
  fun i => kNet (fun k => X (ix2 (i 0) k)) (fun k j => A0 (ix2 k j)) (fun k j => A1 (ix2 k j))
    (fun k j => A2 (ix2 k j)) (i 1)

/-- The printed index maps over the 8 grid points: the batch and output windows sit at row block t, column block
    0; the three matrix windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 8 := Nat.lt_of_lt_of_eq t.isLt N_0

/-- Row p of point t's block is batch row 512 t + p. -/
def brow (t : Fin cfg0.N) (p : Fin 512) : Fin 4096 := ⟨t.val * 512 + p.val, by have := point_lt t; have := p.isLt; omega⟩

theorem emb_out (t : Fin cfg0.N) (p q : Fin 512) :
    ((cfg0.win 4).blk t).view.emb (ix2 p q) = ix2 (brow t p) q := by
  obtain ⟨-, -, -, -, -, -, -, -, e8, e9⟩ := idx_facts t
  funext a; apply Fin.ext
  match a with
  | ⟨0, _⟩ => show win0_4.index t (0 : Fin 2) * 512 + 1 * p.val = t.val * 512 + p.val; omega
  | ⟨1, _⟩ => show win0_4.index t (1 : Fin 2) * 512 + 1 * q.val = q.val; omega

theorem emb_batch (t : Fin cfg0.N) (p k : Fin 512) :
    ((cfg0.win 0).blk t).view.emb (ix2 p k) = ix2 (brow t p) k := by
  obtain ⟨e0, e1, -, -, -, -, -, -, -, -⟩ := idx_facts t
  funext a; apply Fin.ext
  match a with
  | ⟨0, _⟩ => show win0_0.index t (0 : Fin 2) * 512 + 1 * p.val = t.val * 512 + p.val; omega
  | ⟨1, _⟩ => show win0_0.index t (1 : Fin 2) * 512 + 1 * k.val = k.val; omega

theorem emb_m0 (t : Fin cfg0.N) (k : Fin 512) (j : Fin 1536) :
    ((cfg0.win 1).blk t).view.emb (ix2 k j) = ix2 k j := by
  obtain ⟨-, -, e2, e3, -, -, -, -, -, -⟩ := idx_facts t
  funext a; apply Fin.ext
  match a with
  | ⟨0, _⟩ => show win0_1.index t (0 : Fin 2) * 512 + 1 * k.val = k.val; omega
  | ⟨1, _⟩ => show win0_1.index t (1 : Fin 2) * 1536 + 1 * j.val = j.val; omega

theorem emb_m1 (t : Fin cfg0.N) (k : Fin 2048) (j : Fin 1536) :
    ((cfg0.win 2).blk t).view.emb (ix2 k j) = ix2 k j := by
  obtain ⟨-, -, -, -, e4, e5, -, -, -, -⟩ := idx_facts t
  funext a; apply Fin.ext
  match a with
  | ⟨0, _⟩ => show win0_2.index t (0 : Fin 2) * 2048 + 1 * k.val = k.val; omega
  | ⟨1, _⟩ => show win0_2.index t (1 : Fin 2) * 1536 + 1 * j.val = j.val; omega

theorem emb_m2 (t : Fin cfg0.N) (k : Fin 3584) (j : Fin 512) :
    ((cfg0.win 3).blk t).view.emb (ix2 k j) = ix2 k j := by
  obtain ⟨-, -, -, -, -, -, e6, e7, -, -⟩ := idx_facts t
  funext a; apply Fin.ext
  match a with
  | ⟨0, _⟩ => show win0_3.index t (0 : Fin 2) * 3584 + 1 * k.val = k.val; omega
  | ⟨1, _⟩ => show win0_3.index t (1 : Fin 2) * 512 + 1 * j.val = j.val; omega

/-- Entry (p, q) of what point t stores is the array-wide function at batch row 512 t + p, column q: each input
    block read where the output's block says. -/
theorem flushed_at (c : Dev nD) (t : Fin cfg0.N) (p q : Fin 512) :
    k0_pay1 (F := Ideal) (iblk m c 0 t) (iblk m c 1 t) (iblk m c 2 t) (iblk m c 3 t) (ix2 p q)
      = rows (V m c main_arg0) (V m c main_v14) (V m c main_v29) (V m c main_v44)
          (((cfg0.win 4).blk t).view.emb (ix2 p q)) := by
  rw [emb_out]
  refine (payload_apply (iblk m c 0 t) (iblk m c 1 t) (iblk m c 2 t) (iblk m c 3 t) p q).trans ?_
  show _ = kNet (fun k => V m c main_arg0 (ix2 (brow t p) k)) (fun k j => V m c main_v14 (ix2 k j))
    (fun k j => V m c main_v29 (ix2 k j)) (fun k j => V m c main_v44 (ix2 k j)) q
  have e0 : (fun k : Fin 512 => iblk m c 0 t (ix2 p k)) = fun k => V m c main_arg0 (ix2 (brow t p) k) :=
    funext fun k => by
      show V m c main_arg0 (((cfg0.win 0).blk t).view.emb (ix2 p k)) = _
      rw [emb_batch]
  have e1 : (fun (k : Fin 512) (j : Fin 1536) => iblk m c 1 t (ix2 k j)) = fun k j => V m c main_v14 (ix2 k j) :=
    funext fun k => funext fun j => by
      show V m c main_v14 (((cfg0.win 1).blk t).view.emb (ix2 k j)) = _
      rw [emb_m0]
  have e2 : (fun (k : Fin 2048) (j : Fin 1536) => iblk m c 2 t (ix2 k j)) = fun k j => V m c main_v29 (ix2 k j) :=
    funext fun k => funext fun j => by
      show V m c main_v29 (((cfg0.win 2).blk t).view.emb (ix2 k j)) = _
      rw [emb_m1]
  have e3 : (fun (k : Fin 3584) (j : Fin 512) => iblk m c 3 t (ix2 k j)) = fun k j => V m c main_v44 (ix2 k j) :=
    funext fun k => funext fun j => by
      show V m c main_v44 (((cfg0.win 3).blk t).view.emb (ix2 k j)) = _
      rw [emb_m2]
  rw [e0, e1, e2, e3]

/-- What point t writes back is block t of the array-wide function of the arrays the region finds. -/
theorem flushed_eq (c : Dev nD) (t : Fin cfg0.N) :
    (dats m 0 c).flushed 4 t
      = ((cfg0.win 4).blk t).view.read (Elt Ideal)
          (rows (V m c main_arg0) (V m c main_v14) (V m c main_v29) (V m c main_v44)) := by
  rw [flushed4]
  unfold out0_4
  rw [View.canon_unit_zero origin]
  simp only [View.ld_unit_zero (S := S512x512) origin, View.ld_unit_zero (S := S512x1536) origin,
    View.ld_unit_zero (S := S2048x1536) origin, View.ld_unit_zero (S := S3584x512) origin]
  refine funext fun (y : S512x512.Idx) => ?_
  rw [eq_ix2 y]
  exact flushed_at m c t (y 0) (y 1)

/-- An index is in point t's block iff, on each axis, it lies in the block's range. -/
theorem mem_blk (t : Fin cfg0.N) (i : S4096x512.Idx) :
    i ∈ ((cfg0.win 4).blk t).view.set
      ↔ ∀ a : Fin 2, win0_4.index t a * S512x512.size a ≤ (i a).val
          ∧ (i a).val < win0_4.index t a * S512x512.size a + S512x512.size a := by
  show i ∈ ((View.whole main_v45).slice (win0_4.rect t)).set ↔ _
  rw [View.set_slice_whole, Rect.mem_set_unit]
  exact Iff.rfl

/-- The 8 row blocks tile the array: batch row b is in the block of point b / 512. -/
theorem cover (i : S4096x512.Idx) :
    ∃ t : Fin cfg0.N, (cfg0.win 4).flush t = true ∧ i ∈ ((cfg0.win 4).blk t).view.set := by
  have hi0 : (i 0).val < 4096 := (i 0).isLt
  have hi1 : (i 1).val < 512 := (i 1).isLt
  have hN : (i 0).val / 512 < cfg0.N := Nat.lt_of_lt_of_eq (by omega : (i 0).val / 512 < 8) N_0.symm
  refine ⟨⟨(i 0).val / 512, hN⟩, flush0_4 _, ?_⟩
  obtain ⟨-, -, -, -, -, -, -, -, e8, e9⟩ := idx_facts ⟨(i 0).val / 512, hN⟩
  rw [mem_blk]
  intro a
  match a with
  | ⟨0, _⟩ =>
    show win0_4.index ⟨(i 0).val / 512, hN⟩ (0 : Fin 2) * 512 ≤ (i 0).val
      ∧ (i 0).val < win0_4.index ⟨(i 0).val / 512, hN⟩ (0 : Fin 2) * 512 + 512
    have e8' : win0_4.index ⟨(i 0).val / 512, hN⟩ (0 : Fin 2) = (i 0).val / 512 := e8
    omega
  | ⟨1, _⟩ =>
    show win0_4.index ⟨(i 0).val / 512, hN⟩ (1 : Fin 2) * 512 ≤ (i 1).val
      ∧ (i 1).val < win0_4.index ⟨(i 0).val / 512, hN⟩ (1 : Fin 2) * 512 + 512
    omega

/-- After the run the output array is the array-wide function of the arrays the region found. -/
theorem final (c : Dev nD) :
    (dats m 0 c).arrAt 4 cfg0.N
      = rows (V m c main_arg0) (V m c main_v14) (V m c main_v29) (V m c main_v44) :=
  (dats m 0 c).arrAt_eq_of_cover 4 _ (fun t _ => flushed_eq m c t) cover

end Cert.KernelArray

end
-- ==== Proof.KernelAlgebra.lean ====
import proofs.«412913_j33715493274267_3_alg».proof.Proof.RowForms

/-!
The kernel's row is the network, on real inputs.

Every term of the kernel's row is a finite sum of products of real numbers read in the extended reals, so
each contraction is the reading of the same real contraction, each sum of two readings the reading of the
sum, and each rectification the reading of the real rectification. Over the reals, a contraction against
a row that was laid end to end from two rows splits at the seam into the two contractions the kernel
computes, and a level is the rectified contraction against its dense matrix; chaining the three levels
gives the network.
-/

noncomputable section

namespace Cert.KernelAlgebra

open Finset Cert.EdgeSum Cert.LevelSpec Cert.RowForms

/-- A contraction of two real rows, read term by term in the extended reals, is the reading of the real
    contraction. -/
theorem coe_dot {n : ℕ} (r m : Fin n → ℝ) :
    ∑ k, ((r k : ℝ) : EReal) * ((m k : ℝ) : EReal) = ((∑ k, r k * m k : ℝ) : EReal) := by
  rw [coe_sum]
  refine Finset.sum_congr rfl fun k _ => ?_
  rw [EReal.coe_mul]

/-- Contracting two rows laid end to end against a row `m` is the contraction of the first against the
    head of `m` plus the contraction of the second against the tail of `m`. -/
theorem dot_split {a b n : ℕ} (h : a + b = n) (u : Fin a → ℝ) (v : Fin b → ℝ) (m : Fin n → ℝ) :
    ∑ k, append h u v k * m k
      = ∑ i : Fin a, u i * m ⟨i.val, by omega⟩ + ∑ j : Fin b, v j * m ⟨a + j.val, by omega⟩ := by
  rw [sum_split h]
  congr 1
  · refine Finset.sum_congr rfl fun i _ => ?_
    rw [append_left]
  · refine Finset.sum_congr rfl fun j _ => ?_
    rw [append_right]

/-- First level: the rectified contraction of the coerced input row against the coerced dense matrix is
    the coercion of the level. -/
theorem kH1_coe (s0 : Fin 49152 → Fin 512) (d0 : Fin 49152 → ℤ) (w0 : Fin 49152 → ℝ)
    (x : Fin 512 → ℝ) (j : Fin 1536) :
    kH1 (fun k => (x k : EReal)) (fun k j => (dense s0 d0 w0 k j : EReal)) j
      = ((level s0 d0 w0 x j : ℝ) : EReal) := by
  unfold kH1
  rw [coe_dot x (fun k => dense s0 d0 w0 k j), coe_relu, level_eq_dense]

/-- Second level: the contraction split at column 512 is the contraction against the appended row. -/
theorem kH2_coe (s1 : Fin 49152 → Fin 2048) (d1 : Fin 49152 → ℤ) (w1 : Fin 49152 → ℝ)
    (x : Fin 512 → ℝ) (h1 : Fin 1536 → ℝ) (j : Fin 1536) :
    kH2 (fun k => (x k : EReal)) (fun k => (h1 k : EReal)) (fun k j => (dense s1 d1 w1 k j : EReal)) j
      = ((level s1 d1 w1 (append (by norm_num : 512 + 1536 = 2048) x h1) j : ℝ) : EReal) := by
  unfold kH2
  rw [coe_dot x (fun k : Fin 512 => dense s1 d1 w1 ⟨k.val, by omega⟩ j),
    coe_dot h1 (fun k : Fin 1536 => dense s1 d1 w1 ⟨512 + k.val, by omega⟩ j),
    ← EReal.coe_add, coe_relu, level_eq_dense,
    dot_split (by norm_num : 512 + 1536 = 2048) x h1 (fun k => dense s1 d1 w1 k j)]

/-- Third level: the contraction split at columns 512 and 2048 is the contraction against the row
    appended twice. -/
theorem kOut_coe (s2 : Fin 16384 → Fin 3584) (d2 : Fin 16384 → ℤ) (w2 : Fin 16384 → ℝ)
    (x : Fin 512 → ℝ) (h1 h2 : Fin 1536 → ℝ) (q : Fin 512) :
    kOut (fun k => (x k : EReal)) (fun k => (h1 k : EReal)) (fun k => (h2 k : EReal))
        (fun k j => (dense s2 d2 w2 k j : EReal)) q
      = ((level s2 d2 w2 (append (by norm_num : 2048 + 1536 = 3584)
          (append (by norm_num : 512 + 1536 = 2048) x h1) h2) q : ℝ) : EReal) := by
  unfold kOut
  rw [coe_dot x (fun k : Fin 512 => dense s2 d2 w2 ⟨k.val, by omega⟩ q),
    coe_dot h1 (fun k : Fin 1536 => dense s2 d2 w2 ⟨512 + k.val, by omega⟩ q),
    coe_dot h2 (fun k : Fin 1536 => dense s2 d2 w2 ⟨2048 + k.val, by omega⟩ q),
    ← EReal.coe_add, ← EReal.coe_add, coe_relu, level_eq_dense,
    dot_split (by norm_num : 2048 + 1536 = 3584) (append (by norm_num : 512 + 1536 = 2048) x h1) h2
      (fun k => dense s2 d2 w2 k q),
    dot_split (by norm_num : 512 + 1536 = 2048) x h1
      (fun i : Fin 2048 => dense s2 d2 w2 ⟨i.val, by omega⟩ q)]

/-- On a row of reals, against the dense matrices of three levels, the kernel's row is the network. -/
theorem kNet_eq (s0 : Fin 49152 → Fin 512) (d0 : Fin 49152 → ℤ) (w0 : Fin 49152 → ℝ)
    (s1 : Fin 49152 → Fin 2048) (d1 : Fin 49152 → ℤ) (w1 : Fin 49152 → ℝ)
    (s2 : Fin 16384 → Fin 3584) (d2 : Fin 16384 → ℤ) (w2 : Fin 16384 → ℝ)
    (x : Fin 512 → ℝ) (q : Fin 512) :
    kNet (fun k => (x k : EReal)) (fun k j => (dense s0 d0 w0 k j : EReal)) (fun k j => (dense s1 d1 w1 k j : EReal))
        (fun k j => (dense s2 d2 w2 k j : EReal)) q
      = ((net s0 d0 w0 s1 d1 w1 s2 d2 w2 x q : ℝ) : EReal) := by
  have e1 : kH1 (fun k => (x k : EReal)) (fun k j => (dense s0 d0 w0 k j : EReal))
      = fun j => ((level s0 d0 w0 x j : ℝ) : EReal) :=
    funext fun j => kH1_coe s0 d0 w0 x j
  have e2 : kH2 (fun k => (x k : EReal)) (fun j => ((level s0 d0 w0 x j : ℝ) : EReal))
        (fun k j => (dense s1 d1 w1 k j : EReal))
      = fun j => ((level s1 d1 w1 (append (by norm_num : 512 + 1536 = 2048) x (level s0 d0 w0 x)) j : ℝ) : EReal) :=
    funext fun j => kH2_coe s1 d1 w1 x (level s0 d0 w0 x) j
  unfold kNet
  rw [e1, e2]
  exact kOut_coe s2 d2 w2 x (level s0 d0 w0 x)
    (level s1 d1 w1 (append (by norm_num : 512 + 1536 = 2048) x (level s0 d0 w0 x))) q

end Cert.KernelAlgebra

end
-- ==== Proof.IndexReaders.lean ====
import Idealize.ShloMosaic.PureOps.Ideal
import Idealize.ShloMosaic.Lib.ValueIdx

noncomputable section

namespace Cert.IndexReaders

open Idealize.ShloMosaic Idealize.ShloMosaic.ValueIdx

/-- An axis of a rank-2 shape is axis 0 or axis 1. -/
private theorem fin2_cases (a : Fin 2) : a = 0 ∨ a = 1 :=
  match a with
  | ⟨0, _⟩ => Or.inl rfl
  | ⟨1, _⟩ => Or.inr rfl

/-- An axis is among the axes kept outside a list exactly when it is not in the list. -/
private theorem mem_kept_iff (s : Shape) (axes : List (Fin s.rank)) (X : Fin s.rank) :
    X ∈ s.kept axes ↔ X ∉ axes := by
  simp [Shape.kept, List.mem_filter, List.mem_finRange]

/-- A gather of whole columns: operand [B, N], one start index per result column, the row axis an offset axis. -/
theorem gather_cols {α : Type} {B N E w : Nat} (d : GatherDims ⟨2, ![B, N]⟩ ⟨2, ![E, 1]⟩ ⟨2, ![B, E]⟩)
    (hoff : d.offsetDims = [0]) (hcoll : d.collapsedSliceDims = [1]) (hob : d.operandBatchingDims = [])
    (hsim : d.startIndexMap = [1]) (hivd : d.indexVectorDim = 1)
    (x : (⟨2, ![B, N]⟩ : Shape).Idx → α) (idx : IVec ⟨2, ![E, 1]⟩ w) (b : Fin B) (e : Fin E) (hN : 0 < N) :
    Host.gather d x idx (ix2 b e)
      = x (ix2 b ⟨min (idx (ix2 e (0 : Fin 1))).toInt.toNat (N - 1), by omega⟩) := by
  unfold Host.gather
  congr 1
  funext a
  apply Fin.ext
  have hb : ∀ a : Fin 2, a ∉ d.operandBatchingDims := by
    intro a; rw [hob]; exact List.not_mem_nil
  -- every offset axis of the result is axis 0, every batch axis of the result is axis 1
  have hoffAll : ∀ X ∈ d.offsetDims, X = (0 : Fin 2) := by rw [hoff]; simp
  have hbatAll : ∀ X ∈ d.batchDims, X = (1 : Fin 2) := by
    intro X hX
    have hX' : X ∉ d.offsetDims := (mem_kept_iff _ _ _).1 hX
    rw [hoff] at hX'
    rcases fin2_cases X with rfl | rfl
    · exact absurd (List.mem_singleton.2 rfl) hX'
    · rfl
  rcases fin2_cases a with rfl | rfl
  · -- the row axis: not start-indexed, not batching, the one kept axis, read off the result's offset axis 0
    have hk : (0 : Fin 2) ∈ d.sKept := by rw [GatherDims.mem_sKept, hcoll, hob]; simp
    have hm : (0 : Fin 2) ∉ d.startIndexMap := by rw [hsim]; simp
    simp only [GatherDims.operandIdx, GatherDims.batchCoord_eq_zero _ _ _ (hb _), GatherDims.start, dif_neg hm,
      GatherDims.offCoord, dif_pos hk, Nat.add_zero, Nat.zero_add]
    rw [hoffAll _ (List.getElem_mem _)]
  · -- the column axis: collapsed and start-indexed, the start read signed and clamped into the operand
    have hk : (1 : Fin 2) ∉ d.sKept := by rw [GatherDims.mem_sKept, hcoll]; simp
    have hm : (1 : Fin 2) ∈ d.startIndexMap := by rw [hsim]; simp
    have hsl : d.sliceSizes 1 = 1 := d.slice_collapsed 1 (by rw [hcoll]; simp)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 1) = min (idx (ix2 e (0 : Fin 1))).toInt.toNat (N - 1)
    rw [hsl]
    congr 3
    congr 1
    funext b'
    rcases fin2_cases b' with rfl | rfl
    · -- the start indices' axis 0 is read at the result's batch coordinate, its column e
      unfold GatherDims.siIdx
      rw [dif_neg (by rw [hivd]; simp)]
      unfold GatherDims.siCoord
      apply Fin.ext
      simp only [Fin.val_cast]
      rw [hbatAll _ (List.getElem_mem _)]
    · -- the index vector's axis: the one component, number 0
      unfold GatherDims.siIdx
      rw [dif_pos (by rw [hivd]; rfl)]
      apply Fin.ext
      show List.idxOf (1 : Fin 2) d.startIndexMap = 0
      rw [hsim]; simp

/-- Column scatter: update (b', e) lands at (b', start e) when the start is inside the operand. -/
theorem resultIdx_cols {B D E w : Nat} (d : ScatterDims ⟨2, ![B, D]⟩ ⟨2, ![E, 1]⟩ ⟨2, ![B, E]⟩)
    (huw : d.updateWindowDims = [0]) (hiw : d.insertedWindowDims = [1])
    (hsd : d.scatterDimsToOperandDims = [1]) (hivd : d.indexVectorDim = 1)
    (idx : IVec ⟨2, ![E, 1]⟩ w) (b' : Fin B) (e : Fin E) (b : Fin B) (q : Fin D) :
    d.resultIdx? (ix2 b' e) idx = some (ix2 b q)
      ↔ b' = b ∧ (idx (ix2 e (0 : Fin 1))).toInt = (q.val : Int) := by
  -- every window axis of the updates is axis 0, every scatter axis of the updates is axis 1
  have hwinAll : ∀ X ∈ d.updateWindowDims, X = (0 : Fin 2) := by rw [huw]; simp
  have hscAll : ∀ X ∈ d.uScatter, X = (1 : Fin 2) := by
    intro X hX
    have hX' : X ∉ d.updateWindowDims := (mem_kept_iff _ _ _).1 hX
    rw [huw] at hX'
    rcases fin2_cases X with rfl | rfl
    · exact absurd (List.mem_singleton.2 rfl) hX'
    · rfl
  have hk0 : (0 : Fin 2) ∈ d.sKept := by
    refine (mem_kept_iff _ _ _).2 ?_
    rw [hiw]; simp
  have hk1 : (1 : Fin 2) ∉ d.sKept := by
    intro hc
    have hc' : (1 : Fin 2) ∉ d.insertedWindowDims := (mem_kept_iff _ _ _).1 hc
    rw [hiw] at hc'
    exact hc' (List.mem_singleton.2 rfl)
  have hm0 : (0 : Fin 2) ∉ d.scatterDimsToOperandDims := by rw [hsd]; simp
  have hm1 : (1 : Fin 2) ∈ d.scatterDimsToOperandDims := by rw [hsd]; simp
  -- axis 0 (rows): a window axis, start 0, window coordinate the update's row b'
  have hs0 : d.start (ix2 b' e) idx (0 : Fin 2) = 0 := by
    unfold ScatterDims.start; rw [dif_neg hm0]
  have hw0 : d.window (ix2 b' e) (0 : Fin 2) = b'.val := by
    unfold ScatterDims.window
    rw [dif_pos hk0, hwinAll _ (List.getElem_mem _)]
  -- axis 1 (columns): inserted and scattered, start the index read signed at row e, window coordinate 0
  have hw1 : d.window (ix2 b' e) (1 : Fin 2) = 0 := by
    unfold ScatterDims.window; rw [dif_neg hk1]
  have hs1 : d.start (ix2 b' e) idx (1 : Fin 2) = (idx (ix2 e (0 : Fin 1))).toInt := by
    unfold ScatterDims.start
    rw [dif_pos hm1]
    congr 2
    funext β
    rcases fin2_cases β with rfl | rfl
    · unfold ScatterDims.siIdx
      rw [dif_neg (by rw [hivd]; simp)]
      unfold ScatterDims.siCoord
      apply Fin.ext
      simp only [Fin.val_cast]
      rw [hscAll _ (List.getElem_mem _)]
    · unfold ScatterDims.siIdx
      rw [dif_pos (by rw [hivd]; rfl)]
      apply Fin.ext
      show List.idxOf (1 : Fin 2) d.scatterDimsToOperandDims = 0
      rw [hsd]; simp
  have hbB := b'.isLt
  have hbB' := b.isLt
  have hqD := q.isLt
  unfold ScatterDims.resultIdx?
  split
  · rename_i h
    constructor
    · intro heq
      have heq' := Option.some.inj heq
      have e0 : (d.start (ix2 b' e) idx (0 : Fin 2) + (d.window (ix2 b' e) (0 : Fin 2) : Int)).toNat = b.val :=
        congrArg Fin.val (congrFun heq' (0 : Fin 2))
      have e1 : (d.start (ix2 b' e) idx (1 : Fin 2) + (d.window (ix2 b' e) (1 : Fin 2) : Int)).toNat = q.val :=
        congrArg Fin.val (congrFun heq' (1 : Fin 2))
      have h1 : 0 ≤ d.start (ix2 b' e) idx (1 : Fin 2) + (d.window (ix2 b' e) (1 : Fin 2) : Int) := (h (1 : Fin 2)).1
      rw [hs0, hw0] at e0
      rw [hs1, hw1] at e1 h1
      exact ⟨Fin.ext (by omega), by omega⟩
    · rintro ⟨rfl, hq⟩
      congr 1
      funext a
      apply Fin.ext
      rcases fin2_cases a with rfl | rfl
      · show (d.start (ix2 b' e) idx (0 : Fin 2) + (d.window (ix2 b' e) (0 : Fin 2) : Int)).toNat = b'.val
        rw [hs0, hw0]; omega
      · show (d.start (ix2 b' e) idx (1 : Fin 2) + (d.window (ix2 b' e) (1 : Fin 2) : Int)).toNat = q.val
        rw [hs1, hw1]; omega
  · rename_i h
    constructor
    · intro heq; cases heq
    · rintro ⟨rfl, hq⟩
      exfalso
      apply h
      intro a
      rcases fin2_cases a with rfl | rfl
      · rw [hs0, hw0]
        show 0 ≤ (0 : Int) + ((b'.val : Nat) : Int) ∧ (0 : Int) + ((b'.val : Nat) : Int) < ((B : Nat) : Int)
        omega
      · rw [hs1, hw1]
        show 0 ≤ (idx (ix2 e (0 : Fin 1))).toInt + ((0 : Nat) : Int) ∧ (idx (ix2 e (0 : Fin 1))).toInt + ((0 : Nat) : Int) < ((D : Nat) : Int)
        omega

/-- Pair scatter: update e lands at (row start e, column start e) when both are inside the operand. -/
theorem resultIdx_pairs {S D E w : Nat} (d : ScatterDims ⟨2, ![S, D]⟩ ⟨2, ![E, 2]⟩ ⟨1, ![E]⟩)
    (huw : d.updateWindowDims = []) (hiw : d.insertedWindowDims = [0, 1])
    (hsd : d.scatterDimsToOperandDims = [0, 1]) (hivd : d.indexVectorDim = 1)
    (idx : IVec ⟨2, ![E, 2]⟩ w) (e : Fin E) (k : Fin S) (q : Fin D) :
    d.resultIdx? (ix1 e) idx = some (ix2 k q)
      ↔ (idx (ix2 e (0 : Fin 2))).toInt = (k.val : Int) ∧ (idx (ix2 e (1 : Fin 2))).toInt = (q.val : Int) := by
  -- no operand axis is kept (both are inserted), so every window coordinate is 0
  have hnk : ∀ a : Fin 2, a ∉ d.sKept := by
    intro a hc
    have hc' : a ∉ d.insertedWindowDims := (mem_kept_iff _ _ _).1 hc
    rw [hiw] at hc'
    rcases fin2_cases a with rfl | rfl
    · exact hc' (by simp)
    · exact hc' (by simp)
  have hw : ∀ a : Fin 2, d.window (ix1 e) a = 0 := by
    intro a; unfold ScatterDims.window; rw [dif_neg (hnk a)]
  have hm0 : (0 : Fin 2) ∈ d.scatterDimsToOperandDims := by rw [hsd]; simp
  have hm1 : (1 : Fin 2) ∈ d.scatterDimsToOperandDims := by rw [hsd]; simp
  -- component c of the start index is read at row e, column c of the index array
  have hsi : ∀ (c : Fin d.scatterDimsToOperandDims.length) (c' : Fin 2), c.val = c'.val →
      d.siIdx (ix1 e) c = ix2 e c' := by
    intro c c' hcc
    funext β
    rcases fin2_cases β with rfl | rfl
    · -- the index array's row axis is read at the update's one coordinate
      unfold ScatterDims.siIdx
      rw [dif_neg (by rw [hivd]; simp)]
      unfold ScatterDims.siCoord
      apply Fin.ext
      simp only [Fin.val_cast]
      have e1 : ∀ X : Fin 1, ((ix1 e : (⟨1, ![E]⟩ : Shape).Idx) X).val = e.val := fun X => by
        have hX : X = 0 := Subsingleton.elim _ _
        subst hX; rfl
      exact e1 _
    · -- the index vector's axis carries the component number
      unfold ScatterDims.siIdx
      rw [dif_pos (by rw [hivd]; rfl)]
      apply Fin.ext
      exact hcc
  -- axis 0 (rows) starts at component 0, axis 1 (columns) at component 1, both read signed and unclamped
  have hs0 : d.start (ix1 e) idx (0 : Fin 2) = (idx (ix2 e (0 : Fin 2))).toInt := by
    unfold ScatterDims.start
    rw [dif_pos hm0]
    congr 2
    apply hsi
    show List.idxOf (0 : Fin 2) d.scatterDimsToOperandDims = 0
    rw [hsd]; rfl
  have hs1 : d.start (ix1 e) idx (1 : Fin 2) = (idx (ix2 e (1 : Fin 2))).toInt := by
    unfold ScatterDims.start
    rw [dif_pos hm1]
    congr 2
    apply hsi
    show List.idxOf (1 : Fin 2) d.scatterDimsToOperandDims = 1
    rw [hsd]; simp
  have hkS := k.isLt
  have hqD := q.isLt
  unfold ScatterDims.resultIdx?
  split
  · rename_i h
    constructor
    · intro heq
      have heq' := Option.some.inj heq
      have e0 : (d.start (ix1 e) idx (0 : Fin 2) + (d.window (ix1 e) (0 : Fin 2) : Int)).toNat = k.val :=
        congrArg Fin.val (congrFun heq' (0 : Fin 2))
      have e1 : (d.start (ix1 e) idx (1 : Fin 2) + (d.window (ix1 e) (1 : Fin 2) : Int)).toNat = q.val :=
        congrArg Fin.val (congrFun heq' (1 : Fin 2))
      have h0 : 0 ≤ d.start (ix1 e) idx (0 : Fin 2) + (d.window (ix1 e) (0 : Fin 2) : Int) := (h (0 : Fin 2)).1
      have h1 : 0 ≤ d.start (ix1 e) idx (1 : Fin 2) + (d.window (ix1 e) (1 : Fin 2) : Int) := (h (1 : Fin 2)).1
      rw [hs0, hw] at e0 h0
      rw [hs1, hw] at e1 h1
      exact ⟨by omega, by omega⟩
    · rintro ⟨hk', hq⟩
      congr 1
      funext a
      apply Fin.ext
      rcases fin2_cases a with rfl | rfl
      · show (d.start (ix1 e) idx (0 : Fin 2) + (d.window (ix1 e) (0 : Fin 2) : Int)).toNat = k.val
        rw [hs0, hw]; omega
      · show (d.start (ix1 e) idx (1 : Fin 2) + (d.window (ix1 e) (1 : Fin 2) : Int)).toNat = q.val
        rw [hs1, hw]; omega
  · rename_i h
    constructor
    · intro heq; cases heq
    · rintro ⟨hk', hq⟩
      exfalso
      apply h
      intro a
      rcases fin2_cases a with rfl | rfl
      · rw [hs0, hw]
        show 0 ≤ (idx (ix2 e (0 : Fin 2))).toInt + ((0 : Nat) : Int)
          ∧ (idx (ix2 e (0 : Fin 2))).toInt + ((0 : Nat) : Int) < ((S : Nat) : Int)
        omega
      · rw [hs1, hw]
        show 0 ≤ (idx (ix2 e (1 : Fin 2))).toInt + ((0 : Nat) : Int)
          ∧ (idx (ix2 e (1 : Fin 2))).toInt + ((0 : Nat) : Int) < ((D : Nat) : Int)
        omega

end Cert.IndexReaders

end
-- ==== Proof.HostMatrix.lean ====
import proofs.«412913_j33715493274267_3_alg».proof.Proof.RowForms
import proofs.«412913_j33715493274267_3_alg».proof.Proof.IndexReaders
import proofs.«412913_j33715493274267_3_alg».proof.Proof.Edges
import Idealize.ShloMosaic.PureOps.Ideal.Laws
import Idealize.ShloMosaic.Lib.Pipeline.Value
import Idealize.ShloMosaic.Lib.StableHlo.Predicate

/-!
The kernel's host side builds a level's weight matrix by scatter-adding the edge weights at
(source number, destination number) pairs into a zero matrix. Read at entry (k, q), that is zero plus the sum of
the weights of the edges whose pair is (k, q): the pair array is the two normalised index vectors laid side by
side as columns, so edge e lands at (k, q) exactly when its source number is k and its destination number is q.
With every source number inside the node range this is the level's dense matrix entry, the sum over the edges
from node k to destination q of their real weights, read in the extended reals.
-/

noncomputable section
namespace Cert.HostMatrix
open Finset
open Idealize.ShloMosaic Idealize.ShloMosaic.ValueIdx Cert.LevelSpec Cert.RowForms Cert.Edges

/-- A scalar zero laid out over a matrix reads 0 at every entry. -/
theorem zero_mat_apply {S D : ℕ}
    (hz : (⟨0, ![]⟩ : Shape).BroadcastsInDim ⟨2, ![S, D]⟩ (![] : Fin 0 → Fin 2))
    (j : (⟨2, ![S, D]⟩ : Shape).Idx) :
    broadcastInDim ⟨2, ![S, D]⟩ ![] hz (constant (F := Ideal) ⟨0, ![]⟩ .f32 0x00000000#32) j = (0 : EReal) := by
  show Ideal.ofBits .f32 0x00000000#32 = 0
  exact Ideal.ofBits_zero_f32

/-- A vector laid out as an [E, 1] column reads, at (e, 0), the vector at e. -/
theorem col_apply {α : Type} {E : ℕ}
    (hb : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ ![0] hb v (ix2 e (0 : Fin 1)) = v (ix1 e) := by
  have h := StableHlo.Predicate.bcast_col1 hb v e
  have e1 : (StableHlo.Predicate.ixP e : (⟨2, ![E, 1]⟩ : Shape).Idx) = ix2 e (0 : Fin 1) := by
    funext a
    match a with
    | ⟨0, _⟩ => rfl
    | ⟨1, _⟩ => rfl
  have e2 : (Shape.Idx.ofFin e : (⟨1, ![E]⟩ : Shape).Idx) = ix1 e := by
    funext a
    match a with
    | ⟨0, _⟩ => rfl
  rw [e1, e2] at h
  exact h

/-- Two [E, 1] columns side by side: column 0 of the [E, 2] array is the first piece. -/
theorem pair_left {α : Type} {E : ℕ}
    (hc : Shape.Concatenates [(⟨2, ![E, 1]⟩ : Shape), ⟨2, ![E, 1]⟩] ⟨2, ![E, 2]⟩ 1)
    (x₁ x₂ : (⟨2, ![E, 1]⟩ : Shape).Idx → α) (e : Fin E) :
    concatenate ⟨2, ![E, 2]⟩ 1 [⟨⟨2, ![E, 1]⟩, x₁⟩, ⟨⟨2, ![E, 1]⟩, x₂⟩] hc (ix2 e (0 : Fin 2))
      = x₁ (ix2 e (0 : Fin 1)) := by
  refine concatenate_pair_apply_left (1 : Fin 2) x₁ x₂ hc (ix2 e (0 : Fin 2)) rfl (ix2 e (0 : Fin 1)) ?_
  intro b
  match b with
  | ⟨0, _⟩ => rfl
  | ⟨1, _⟩ => rfl

/-- Two [E, 1] columns side by side: column 1 of the [E, 2] array is the second piece (1 = 0 + 1). -/
theorem pair_right {α : Type} {E : ℕ}
    (hc : Shape.Concatenates [(⟨2, ![E, 1]⟩ : Shape), ⟨2, ![E, 1]⟩] ⟨2, ![E, 2]⟩ 1)
    (x₁ x₂ : (⟨2, ![E, 1]⟩ : Shape).Idx → α) (e : Fin E) :
    concatenate ⟨2, ![E, 2]⟩ 1 [⟨⟨2, ![E, 1]⟩, x₁⟩, ⟨⟨2, ![E, 1]⟩, x₂⟩] hc (ix2 e (1 : Fin 2))
      = x₂ (ix2 e (0 : Fin 1)) := by
  refine concatenate_pair_apply_right (1 : Fin 2) x₁ x₂ hc (ix2 e (1 : Fin 2)) rfl rfl (ix2 e (0 : Fin 1)) ?_ ?_
  · intro b hne
    match b, hne with
    | ⟨0, _⟩, _ => rfl
    | ⟨1, _⟩, hne => exact absurd rfl hne
  · rfl

/-- The rank-1 index type of extent E is Fin E, through its one coordinate. -/
def idxEquiv1 {E : ℕ} : Fin E ≃ (⟨1, ![E]⟩ : Shape).Idx where
  toFun e := ix1 e
  invFun j := j 0
  left_inv _ := rfl
  right_inv j := (eq_ix1 j).symm

/-- A filtered sum over the rank-1 index type is the same filtered sum over Fin E. -/
theorem sum_filter_idx1 {M : Type*} [AddCommMonoid M] {E : ℕ}
    (P : (⟨1, ![E]⟩ : Shape).Idx → Prop) [DecidablePred P] (f : (⟨1, ![E]⟩ : Shape).Idx → M) :
    ∑ j ∈ univ.filter P, f j = ∑ e ∈ (univ : Finset (Fin E)).filter (fun e => P (ix1 e)), f (ix1 e) := by
  rw [Finset.sum_filter, Finset.sum_filter]
  exact (Equiv.sum_comp idxEquiv1 (fun j => if P j then f j else 0)).symm

/-- A source number inside the node range names node k exactly when, read signed, it is k. -/
theorem srcNode_eq_iff {E S : ℕ} (hS : 0 < S) (ns : IVec ⟨1, ![E]⟩ 32) (e : Fin E)
    (h : 0 ≤ (ns (ix1 e)).toInt ∧ (ns (ix1 e)).toInt < S) (k : Fin S) :
    srcNode S hS ns e = k ↔ (ns (ix1 e)).toInt = (k.val : ℤ) := by
  have hv := srcNode_val S hS ns e h
  constructor
  · intro hk
    rw [← hv, hk]
  · intro hk
    apply Fin.ext
    have : ((srcNode S hS ns e).val : ℤ) = (k.val : ℤ) := by rw [hv, hk]
    exact_mod_cast this

/-- A scatter-add of edge weights at (source number, destination number) pairs into a zero matrix is, entry by
    entry, the level's dense matrix. -/
theorem pairs_scatter_apply {S D E : ℕ} (hS : 0 < S)
    (d : ScatterDims ⟨2, ![S, D]⟩ ⟨2, ![E, 2]⟩ ⟨1, ![E]⟩)
    (huw : d.updateWindowDims = []) (hiw : d.insertedWindowDims = [0, 1])
    (hsd : d.scatterDimsToOperandDims = [0, 1]) (hivd : d.indexVectorDim = 1)
    (hz : (⟨0, ![]⟩ : Shape).BroadcastsInDim ⟨2, ![S, D]⟩ (![] : Fin 0 → Fin 2))
    (hb : (⟨1, ![E]⟩ : Shape).BroadcastsInDim ⟨2, ![E, 1]⟩ (![0] : Fin 1 → Fin 2))
    (hc : Shape.Concatenates [(⟨2, ![E, 1]⟩ : Shape), ⟨2, ![E, 1]⟩] ⟨2, ![E, 2]⟩ 1)
    (ns nd : IVec ⟨1, ![E]⟩ 32) (W : FVec Ideal ⟨1, ![E]⟩ .f32) (wr : Fin E → ℝ)
    (hW : ∀ e, W (ix1 e) = (wr e : EReal))
    (hs : ∀ e, 0 ≤ (ns (ix1 e)).toInt ∧ (ns (ix1 e)).toInt < S)
    (k : Fin S) (q : Fin D) :
    Host.scatterAdd d (broadcastInDim ⟨2, ![S, D]⟩ ![] hz (constant (F := Ideal) ⟨0, ![]⟩ .f32 0x00000000#32))
        (concatenate ⟨2, ![E, 2]⟩ 1
          [⟨⟨2, ![E, 1]⟩, broadcastInDim ⟨2, ![E, 1]⟩ ![0] hb ns⟩, ⟨⟨2, ![E, 1]⟩, broadcastInDim ⟨2, ![E, 1]⟩ ![0] hb nd⟩] hc)
        W (ix2 k q)
      = ((dense (srcNode S hS ns) (dstNum nd) wr k q : ℝ) : EReal) := by
  -- the scatter-add at the entry: the zero there, plus the weights of the updates landing there
  simp only [Host.scatterAdd, Ideal.hostScatterAdd_def, Ideal.hostScatterAdd]
  rw [zero_mat_apply hz, zero_add, sum_filter_idx1]
  -- the dense matrix entry, read in the extended reals, is the sum of the readings
  unfold dense
  rw [Cert.EdgeSum.coe_sum]
  refine Finset.sum_congr ?_ (fun e _ => hW e)
  -- edge e lands at (k, q) exactly when its source is node k and its destination number is q
  ext e
  simp only [Finset.mem_filter, Finset.mem_univ, true_and]
  rw [Cert.IndexReaders.resultIdx_pairs d huw hiw hsd hivd, pair_left, pair_right, col_apply, col_apply,
    srcNode_eq_iff hS ns e (hs e) k]
  rfl

end Cert.HostMatrix
end
-- ==== Proof.Spec.lean ====
import proofs.«412913_j33715493274267_3_alg».proof.Proof.Normalise

/-!
What both programs compute, as one function of the ten input arrays.

Entry (b, q) of the result is the network on batch row b, at output node q: the real function `net` of the
row's real entries, with each level's edges read off the level's normalised index vectors and the real parts of
its weights. Under the precondition every entry of x and of the weights IS a real number, so nothing is lost by
taking real parts.
-/

noncomputable section

namespace Cert.Spec

open Idealize.ShloMosaic Idealize.ShloMosaic.ValueIdx Cert.LevelSpec Cert.Edges Cert.Normalise

/-- An extended real that is a real is the coercion of its real part. -/
theorem coe_toReal_of_real {v : EReal} (h : ∃ r : ℝ, v = (r : EReal)) : ((v.toReal : ℝ) : EReal) = v := by
  obtain ⟨r, rfl⟩ := h
  rw [EReal.toReal_coe]

/-- The result array: the network on each batch row. -/
def G (hb49 : (⟨0, ![]⟩ : Shape).BroadcastsInDim ⟨1, ![49152]⟩ (![] : Fin 0 → Fin 1))
    (hb16 : (⟨0, ![]⟩ : Shape).BroadcastsInDim ⟨1, ![16384]⟩ (![] : Fin 0 → Fin 1))
    (x : FVec Ideal ⟨2, ![4096, 512]⟩ .f32)
    (s0 d0 : IVec ⟨1, ![49152]⟩ 32) (w0 : FVec Ideal ⟨1, ![49152]⟩ .f32)
    (s1 d1 : IVec ⟨1, ![49152]⟩ 32) (w1 : FVec Ideal ⟨1, ![49152]⟩ .f32)
    (s2 d2 : IVec ⟨1, ![16384]⟩ 32) (w2 : FVec Ideal ⟨1, ![16384]⟩ .f32) :
    (⟨2, ![4096, 512]⟩ : Shape).Idx → EReal :=
  fun i =>
    ((net (srcNode 512 (by norm_num) (nrm hb49 512#32 s0)) (dstNum (nrm hb49 1536#32 d0)) (fun e => (w0 (ix1 e)).toReal)
        (srcNode 2048 (by norm_num) (nrm hb49 2048#32 s1)) (dstNum (nrm hb49 1536#32 d1)) (fun e => (w1 (ix1 e)).toReal)
        (srcNode 3584 (by norm_num) (nrm hb16 3584#32 s2)) (dstNum (nrm hb16 512#32 d2)) (fun e => (w2 (ix1 e)).toReal)
        (fun k => (x (ix2 (i 0) k)).toReal) (i 1) : ℝ) : EReal)

end Cert.Spec

end
-- ==== Proof.KernelBridge.lean ====
import proofs.«412913_j33715493274267_3_alg».proof.Proof.KernelArray
import proofs.«412913_j33715493274267_3_alg».proof.Proof.KernelAlgebra
import proofs.«412913_j33715493274267_3_alg».proof.Proof.HostMatrix
import proofs.«412913_j33715493274267_3_alg».proof.Proof.Spec

/-!
The kernel's output array is the specification, when the three staged matrices are the scatter-adds of the
levels' weights at their (source, destination) pairs, every entry of x and of the weights is a real number, and
every source index names a node of its level's range. The last is what makes a matrix entry collect exactly the
edges from its row's node: an in-range source index is its own normalised, clamped value.
-/

noncomputable section

namespace Cert.KernelBridge

open Cert.KernelIdeal Cert.KernelIdeal.Gen Idealize.ShloMosaic Idealize.ShloMosaic.ValueIdx
open Cert.RowForms Cert.Edges Cert.Normalise Cert.KernelArray Cert.Spec Cert.LevelSpec Cert.HostMatrix

theorem rows_eq_G (X : FVec Ideal S4096x512 .f32) (s0 d0 : IVec S49152 32) (w0 : FVec Ideal S49152 .f32)
    (s1 d1 : IVec S49152 32) (w1 : FVec Ideal S49152 .f32)
    (s2 d2 : IVec S16384 32) (w2 : FVec Ideal S16384 .f32)
    (A0 : FVec Ideal S512x1536 .f32) (A1 : FVec Ideal S2048x1536 .f32) (A2 : FVec Ideal S3584x512 .f32)
    (hA0 : A0 = Host.scatterAdd scatter_S512x1536_S49152x2_S49152_n_01_01_1
          (broadcastInDim S512x1536 ![] bcast_S_S512x1536 (constant (F := Ideal) S_ .f32 0x00000000#32))
          (concatenate S49152x2 1
            [⟨S49152x1, broadcastInDim S49152x1 ![0] bcast_S49152_S49152x1_0 (nrm bcast_S_S49152 512#32 s0)⟩,
             ⟨S49152x1, broadcastInDim S49152x1 ![0] bcast_S49152_S49152x1_0 (nrm bcast_S_S49152 1536#32 d0)⟩]
            concatenates_S49152x1_S49152x1_S49152x2_d1)
          w0)
    (hA1 : A1 = Host.scatterAdd scatter_S2048x1536_S49152x2_S49152_n_01_01_1
          (broadcastInDim S2048x1536 ![] bcast_S_S2048x1536 (constant (F := Ideal) S_ .f32 0x00000000#32))
          (concatenate S49152x2 1
            [⟨S49152x1, broadcastInDim S49152x1 ![0] bcast_S49152_S49152x1_0 (nrm bcast_S_S49152 2048#32 s1)⟩,
             ⟨S49152x1, broadcastInDim S49152x1 ![0] bcast_S49152_S49152x1_0 (nrm bcast_S_S49152 1536#32 d1)⟩]
            concatenates_S49152x1_S49152x1_S49152x2_d1)
          w1)
    (hA2 : A2 = Host.scatterAdd scatter_S3584x512_S16384x2_S16384_n_01_01_1
          (broadcastInDim S3584x512 ![] bcast_S_S3584x512 (constant (F := Ideal) S_ .f32 0x00000000#32))
          (concatenate S16384x2 1
            [⟨S16384x1, broadcastInDim S16384x1 ![0] bcast_S16384_S16384x1_0 (nrm bcast_S_S16384 3584#32 s2)⟩,
             ⟨S16384x1, broadcastInDim S16384x1 ![0] bcast_S16384_S16384x1_0 (nrm bcast_S_S16384 512#32 d2)⟩]
            concatenates_S16384x1_S16384x1_S16384x2_d1)
          w2)
    (hx : ∀ i, ∃ r : ℝ, X i = (r : EReal)) (h0 : ∀ e, ∃ r : ℝ, w0 e = (r : EReal))
    (h1 : ∀ e, ∃ r : ℝ, w1 e = (r : EReal)) (h2 : ∀ e, ∃ r : ℝ, w2 e = (r : EReal))
    (r0 : ∀ e, 0 ≤ (s0 e).toInt ∧ (s0 e).toInt < 512) (r1 : ∀ e, 0 ≤ (s1 e).toInt ∧ (s1 e).toInt < 2048)
    (r2 : ∀ e, 0 ≤ (s2 e).toInt ∧ (s2 e).toInt < 3584) :
    rows X A0 A1 A2 = G bcast_S_S49152 bcast_S_S16384 X s0 d0 w0 s1 d1 w1 s2 d2 w2 := by
  funext i
  obtain ⟨b, q, rfl⟩ : ∃ (b : Fin 4096) (q : Fin 512), i = ix2 b q := ⟨i 0, i 1, eq_ix2 i⟩
  show kNet (fun k => X (ix2 b k)) (fun k j => A0 (ix2 k j)) (fun k j => A1 (ix2 k j)) (fun k j => A2 (ix2 k j)) q = _
  have eX : (fun k : Fin 512 => X (ix2 b k)) = fun k => (((X (ix2 b k)).toReal : ℝ) : EReal) :=
    funext fun k => (coe_toReal_of_real (hx _)).symm
  have eA0 : (fun (k : Fin 512) (j : Fin 1536) => A0 (ix2 k j))
      = fun k j => ((dense (srcNode 512 (by norm_num) (nrm bcast_S_S49152 512#32 s0)) (dstNum (nrm bcast_S_S49152 1536#32 d0))
          (fun e => (w0 (ix1 e)).toReal) k j : ℝ) : EReal) :=
    funext fun k => funext fun j => by
      rw [hA0]
      exact pairs_scatter_apply (by norm_num) _ rfl rfl rfl rfl _ _ _ _ _ w0 _
        (fun e => (coe_toReal_of_real (h0 _)).symm)
        (fun e => by rw [nrm_of_nonneg bcast_S_S49152 512#32 s0 e (r0 (ix1 e)).1]; exact r0 (ix1 e)) k j
  have eA1 : (fun (k : Fin 2048) (j : Fin 1536) => A1 (ix2 k j))
      = fun k j => ((dense (srcNode 2048 (by norm_num) (nrm bcast_S_S49152 2048#32 s1)) (dstNum (nrm bcast_S_S49152 1536#32 d1))
          (fun e => (w1 (ix1 e)).toReal) k j : ℝ) : EReal) :=
    funext fun k => funext fun j => by
      rw [hA1]
      exact pairs_scatter_apply (by norm_num) _ rfl rfl rfl rfl _ _ _ _ _ w1 _
        (fun e => (coe_toReal_of_real (h1 _)).symm)
        (fun e => by rw [nrm_of_nonneg bcast_S_S49152 2048#32 s1 e (r1 (ix1 e)).1]; exact r1 (ix1 e)) k j
  have eA2 : (fun (k : Fin 3584) (j : Fin 512) => A2 (ix2 k j))
      = fun k j => ((dense (srcNode 3584 (by norm_num) (nrm bcast_S_S16384 3584#32 s2)) (dstNum (nrm bcast_S_S16384 512#32 d2))
          (fun e => (w2 (ix1 e)).toReal) k j : ℝ) : EReal) :=
    funext fun k => funext fun j => by
      rw [hA2]
      exact pairs_scatter_apply (by norm_num) _ rfl rfl rfl rfl _ _ _ _ _ w2 _
        (fun e => (coe_toReal_of_real (h2 _)).symm)
        (fun e => by rw [nrm_of_nonneg bcast_S_S16384 3584#32 s2 e (r2 (ix1 e)).1]; exact r2 (ix1 e)) k j
  rw [eX, eA0, eA1, eA2]
  exact Cert.KernelAlgebra.kNet_eq _ _ _ _ _ _ _ _ _ _ _

end Cert.KernelBridge

end
-- ==== Proof.ReferenceChunks.lean ====
import proofs.«412913_j33715493274267_3_alg».proof.Proof.ReferenceRun
import proofs.«412913_j33715493274267_3_alg».proof.Proof.Normalise
import Idealize.ShloMosaic.Lib.StableHlo.Run

/-!
The reference's run, in three stretches.

The reference's 80 host operations fall into three stretches, one per level, each beginning where the row of
node values is extended by a concatenation. Running a stretch from ANY buffer contents leaves, in its level's
result buffer, the level's value of the contents it started from: the source columns gathered, weighed,
scatter-added by destination into a zero array, and rectified. Reading the three stretches one after the other
gives the whole run without ever forming the 80-operation composite.
-/

noncomputable section

namespace Cert.ReferenceChunks

open Cert.ReferenceIdeal Cert.ReferenceIdeal.Gen Cert.ReferenceIdeal.RunP Idealize.ShloMosaic Idealize.ShloMosaic.TcCoe
open Idealize.SL.Sem Idealize.ShloMosaic.StableHlo Cert.Normalise

section Lists
variable {F : FTy → Type} [FloatOps F]

/-- The first level's operations: up to its rectified result. -/
abbrev ops1 : List (HloOp τ sig (Elt F)) :=
  [ nullary main_c (constantI S_ 32 0#32),
    unary main_c main_v0 (broadcastInDim S49152 ![] bcast_S_S49152 : (⟨S_, .i32⟩ : BufTy).Contents (Elt F) → (⟨S49152, .i32⟩ : BufTy).Contents (Elt F)),
    binary main_arg1 main_v0 main_v1 (cmpi .slt : (⟨S49152, .i32⟩ : BufTy).Contents (Elt F) → (⟨S49152, .i32⟩ : BufTy).Contents (Elt F) → (⟨S49152, .i1⟩ : BufTy).Contents (Elt F)),
    nullary main_c_0 (constantI S_ 32 512#32),
    unary main_c_0 main_v2 (broadcastInDim S49152 ![] bcast_S_S49152 : (⟨S_, .i32⟩ : BufTy).Contents (Elt F) → (⟨S49152, .i32⟩ : BufTy).Contents (Elt F)),
    binary main_arg1 main_v2 main_v3 (addi : (⟨S49152, .i32⟩ : BufTy).Contents (Elt F) → (⟨S49152, .i32⟩ : BufTy).Contents (Elt F) → (⟨S49152, .i32⟩ : BufTy).Contents (Elt F)),
    ternary main_v1 main_v3 main_arg1 main_v4 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    unary main_v4 main_v5 (broadcastInDim S49152x1 ![0] bcast_S49152_S49152x1_0 : (⟨S49152, .i32⟩ : BufTy).Contents (Elt F) → (⟨S49152x1, .i32⟩ : BufTy).Contents (Elt F)),
    binary main_arg0 main_v5 main_v6 ((fun x i => Host.gather gather_S4096x512_S49152x1_S4096x49152_0_1_n_n_1_1_40961 x i) : (⟨S4096x512, .f32⟩ : BufTy).Contents (Elt F) → (⟨S49152x1, .i32⟩ : BufTy).Contents (Elt F) → (⟨S4096x49152, .f32⟩ : BufTy).Contents (Elt F)),
    unary main_arg3 main_v7 (broadcastInDim S1x49152 ![1] bcast_S49152_S1x49152_1 : (⟨S49152, .f32⟩ : BufTy).Contents (Elt F) → (⟨S1x49152, .f32⟩ : BufTy).Contents (Elt F)),
    unary main_v7 main_v8 (broadcastInDim S4096x49152 ![0, 1] bcast_S1x49152_S4096x49152_0_1 : (⟨S1x49152, .f32⟩ : BufTy).Contents (Elt F) → (⟨S4096x49152, .f32⟩ : BufTy).Contents (Elt F)),
    binary main_v6 main_v8 main_v9 (mulf : (⟨S4096x49152, .f32⟩ : BufTy).Contents (Elt F) → (⟨S4096x49152, .f32⟩ : BufTy).Contents (Elt F) → (⟨S4096x49152, .f32⟩ : BufTy).Contents (Elt F)),
    nullary main_cst (constant S_ .f32 0x00000000#32),
    unary main_cst main_v10 (broadcastInDim S4096x1536 ![] bcast_S_S4096x1536 : (⟨S_, .f32⟩ : BufTy).Contents (Elt F) → (⟨S4096x1536, .f32⟩ : BufTy).Contents (Elt F)),
    nullary main_c_1 (constantI S_ 32 0#32),
    unary main_c_1 main_v11 (broadcastInDim S49152 ![] bcast_S_S49152 : (⟨S_, .i32⟩ : BufTy).Contents (Elt F) → (⟨S49152, .i32⟩ : BufTy).Contents (Elt F)),
    binary main_arg2 main_v11 main_v12 (cmpi .slt : (⟨S49152, .i32⟩ : BufTy).Contents (Elt F) → (⟨S49152, .i32⟩ : BufTy).Contents (Elt F) → (⟨S49152, .i1⟩ : BufTy).Contents (Elt F)),
    nullary main_c_2 (constantI S_ 32 1536#32),
    unary main_c_2 main_v13 (broadcastInDim S49152 ![] bcast_S_S49152 : (⟨S_, .i32⟩ : BufTy).Contents (Elt F) → (⟨S49152, .i32⟩ : BufTy).Contents (Elt F)),
    binary main_arg2 main_v13 main_v14 (addi : (⟨S49152, .i32⟩ : BufTy).Contents (Elt F) → (⟨S49152, .i32⟩ : BufTy).Contents (Elt F) → (⟨S49152, .i32⟩ : BufTy).Contents (Elt F)),
    ternary main_v12 main_v14 main_arg2 main_v15 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    unary main_v15 main_v16 (broadcastInDim S49152x1 ![0] bcast_S49152_S49152x1_0 : (⟨S49152, .i32⟩ : BufTy).Contents (Elt F) → (⟨S49152x1, .i32⟩ : BufTy).Contents (Elt F)),
    ternary main_v10 main_v16 main_v9 main_v17 ((fun x i u => Host.scatterAdd scatter_S4096x1536_S49152x1_S4096x49152_0_1_1_1 x i u) : (⟨S4096x1536, .f32⟩ : BufTy).Contents (Elt F) → (⟨S49152x1, .i32⟩ : BufTy).Contents (Elt F) → (⟨S4096x49152, .f32⟩ : BufTy).Contents (Elt F) → (⟨S4096x1536, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x1536, .f32⟩) main_call0_v0) (broadcastInDim S4096x1536 ![] bcast_S_S4096x1536),
    TRef.binary (TRef.of (T := ⟨S4096x1536, .f32⟩) main_v17) (TRef.of (T := ⟨S4096x1536, .f32⟩) main_call0_v0) (TRef.of (T := ⟨S4096x1536, .f32⟩) main_v18) maximumf ]

/-- The second level's operations: the first concatenation, then the level. -/
abbrev ops2 : List (HloOp τ sig (Elt F)) :=
  [ binary main_arg0 main_v18 main_v19 ((fun a b => concatenate S4096x2048 1 [⟨S4096x512, a⟩, ⟨S4096x1536, b⟩] concatenates_S4096x512_S4096x1536_S4096x2048_d1) : (⟨S4096x512, .f32⟩ : BufTy).Contents (Elt F) → (⟨S4096x1536, .f32⟩ : BufTy).Contents (Elt F) → (⟨S4096x2048, .f32⟩ : BufTy).Contents (Elt F)),
    nullary main_c_3 (constantI S_ 32 0#32),
    unary main_c_3 main_v20 (broadcastInDim S49152 ![] bcast_S_S49152 : (⟨S_, .i32⟩ : BufTy).Contents (Elt F) → (⟨S49152, .i32⟩ : BufTy).Contents (Elt F)),
    binary main_arg4 main_v20 main_v21 (cmpi .slt : (⟨S49152, .i32⟩ : BufTy).Contents (Elt F) → (⟨S49152, .i32⟩ : BufTy).Contents (Elt F) → (⟨S49152, .i1⟩ : BufTy).Contents (Elt F)),
    nullary main_c_4 (constantI S_ 32 2048#32),
    unary main_c_4 main_v22 (broadcastInDim S49152 ![] bcast_S_S49152 : (⟨S_, .i32⟩ : BufTy).Contents (Elt F) → (⟨S49152, .i32⟩ : BufTy).Contents (Elt F)),
    binary main_arg4 main_v22 main_v23 (addi : (⟨S49152, .i32⟩ : BufTy).Contents (Elt F) → (⟨S49152, .i32⟩ : BufTy).Contents (Elt F) → (⟨S49152, .i32⟩ : BufTy).Contents (Elt F)),
    ternary main_v21 main_v23 main_arg4 main_v24 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    unary main_v24 main_v25 (broadcastInDim S49152x1 ![0] bcast_S49152_S49152x1_0 : (⟨S49152, .i32⟩ : BufTy).Contents (Elt F) → (⟨S49152x1, .i32⟩ : BufTy).Contents (Elt F)),
    binary main_v19 main_v25 main_v26 ((fun x i => Host.gather gather_S4096x2048_S49152x1_S4096x49152_0_1_n_n_1_1_40961 x i) : (⟨S4096x2048, .f32⟩ : BufTy).Contents (Elt F) → (⟨S49152x1, .i32⟩ : BufTy).Contents (Elt F) → (⟨S4096x49152, .f32⟩ : BufTy).Contents (Elt F)),
    unary main_arg6 main_v27 (broadcastInDim S1x49152 ![1] bcast_S49152_S1x49152_1 : (⟨S49152, .f32⟩ : BufTy).Contents (Elt F) → (⟨S1x49152, .f32⟩ : BufTy).Contents (Elt F)),
    unary main_v27 main_v28 (broadcastInDim S4096x49152 ![0, 1] bcast_S1x49152_S4096x49152_0_1 : (⟨S1x49152, .f32⟩ : BufTy).Contents (Elt F) → (⟨S4096x49152, .f32⟩ : BufTy).Contents (Elt F)),
    binary main_v26 main_v28 main_v29 (mulf : (⟨S4096x49152, .f32⟩ : BufTy).Contents (Elt F) → (⟨S4096x49152, .f32⟩ : BufTy).Contents (Elt F) → (⟨S4096x49152, .f32⟩ : BufTy).Contents (Elt F)),
    nullary main_cst_5 (constant S_ .f32 0x00000000#32),
    unary main_cst_5 main_v30 (broadcastInDim S4096x1536 ![] bcast_S_S4096x1536 : (⟨S_, .f32⟩ : BufTy).Contents (Elt F) → (⟨S4096x1536, .f32⟩ : BufTy).Contents (Elt F)),
    nullary main_c_6 (constantI S_ 32 0#32),
    unary main_c_6 main_v31 (broadcastInDim S49152 ![] bcast_S_S49152 : (⟨S_, .i32⟩ : BufTy).Contents (Elt F) → (⟨S49152, .i32⟩ : BufTy).Contents (Elt F)),
    binary main_arg5 main_v31 main_v32 (cmpi .slt : (⟨S49152, .i32⟩ : BufTy).Contents (Elt F) → (⟨S49152, .i32⟩ : BufTy).Contents (Elt F) → (⟨S49152, .i1⟩ : BufTy).Contents (Elt F)),
    nullary main_c_7 (constantI S_ 32 1536#32),
    unary main_c_7 main_v33 (broadcastInDim S49152 ![] bcast_S_S49152 : (⟨S_, .i32⟩ : BufTy).Contents (Elt F) → (⟨S49152, .i32⟩ : BufTy).Contents (Elt F)),
    binary main_arg5 main_v33 main_v34 (addi : (⟨S49152, .i32⟩ : BufTy).Contents (Elt F) → (⟨S49152, .i32⟩ : BufTy).Contents (Elt F) → (⟨S49152, .i32⟩ : BufTy).Contents (Elt F)),
    ternary main_v32 main_v34 main_arg5 main_v35 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    unary main_v35 main_v36 (broadcastInDim S49152x1 ![0] bcast_S49152_S49152x1_0 : (⟨S49152, .i32⟩ : BufTy).Contents (Elt F) → (⟨S49152x1, .i32⟩ : BufTy).Contents (Elt F)),
    ternary main_v30 main_v36 main_v29 main_v37 ((fun x i u => Host.scatterAdd scatter_S4096x1536_S49152x1_S4096x49152_0_1_1_1 x i u) : (⟨S4096x1536, .f32⟩ : BufTy).Contents (Elt F) → (⟨S49152x1, .i32⟩ : BufTy).Contents (Elt F) → (⟨S4096x49152, .f32⟩ : BufTy).Contents (Elt F) → (⟨S4096x1536, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x1536, .f32⟩) main_call1_v0) (broadcastInDim S4096x1536 ![] bcast_S_S4096x1536),
    TRef.binary (TRef.of (T := ⟨S4096x1536, .f32⟩) main_v37) (TRef.of (T := ⟨S4096x1536, .f32⟩) main_call1_v0) (TRef.of (T := ⟨S4096x1536, .f32⟩) main_v38) maximumf ]

/-- The third level's operations: the second concatenation, then the level. -/
abbrev ops3 : List (HloOp τ sig (Elt F)) :=
  [ binary main_v19 main_v38 main_v39 ((fun a b => concatenate S4096x3584 1 [⟨S4096x2048, a⟩, ⟨S4096x1536, b⟩] concatenates_S4096x2048_S4096x1536_S4096x3584_d1) : (⟨S4096x2048, .f32⟩ : BufTy).Contents (Elt F) → (⟨S4096x1536, .f32⟩ : BufTy).Contents (Elt F) → (⟨S4096x3584, .f32⟩ : BufTy).Contents (Elt F)),
    nullary main_c_8 (constantI S_ 32 0#32),
    unary main_c_8 main_v40 (broadcastInDim S16384 ![] bcast_S_S16384 : (⟨S_, .i32⟩ : BufTy).Contents (Elt F) → (⟨S16384, .i32⟩ : BufTy).Contents (Elt F)),
    binary main_arg7 main_v40 main_v41 (cmpi .slt : (⟨S16384, .i32⟩ : BufTy).Contents (Elt F) → (⟨S16384, .i32⟩ : BufTy).Contents (Elt F) → (⟨S16384, .i1⟩ : BufTy).Contents (Elt F)),
    nullary main_c_9 (constantI S_ 32 3584#32),
    unary main_c_9 main_v42 (broadcastInDim S16384 ![] bcast_S_S16384 : (⟨S_, .i32⟩ : BufTy).Contents (Elt F) → (⟨S16384, .i32⟩ : BufTy).Contents (Elt F)),
    binary main_arg7 main_v42 main_v43 (addi : (⟨S16384, .i32⟩ : BufTy).Contents (Elt F) → (⟨S16384, .i32⟩ : BufTy).Contents (Elt F) → (⟨S16384, .i32⟩ : BufTy).Contents (Elt F)),
    ternary main_v41 main_v43 main_arg7 main_v44 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v44 main_v45 (broadcastInDim S16384x1 ![0] bcast_S16384_S16384x1_0 : (⟨S16384, .i32⟩ : BufTy).Contents (Elt F) → (⟨S16384x1, .i32⟩ : BufTy).Contents (Elt F)),
    binary main_v39 main_v45 main_v46 ((fun x i => Host.gather gather_S4096x3584_S16384x1_S4096x16384_0_1_n_n_1_1_40961 x i) : (⟨S4096x3584, .f32⟩ : BufTy).Contents (Elt F) → (⟨S16384x1, .i32⟩ : BufTy).Contents (Elt F) → (⟨S4096x16384, .f32⟩ : BufTy).Contents (Elt F)),
    unary main_arg9 main_v47 (broadcastInDim S1x16384 ![1] bcast_S16384_S1x16384_1 : (⟨S16384, .f32⟩ : BufTy).Contents (Elt F) → (⟨S1x16384, .f32⟩ : BufTy).Contents (Elt F)),
    unary main_v47 main_v48 (broadcastInDim S4096x16384 ![0, 1] bcast_S1x16384_S4096x16384_0_1 : (⟨S1x16384, .f32⟩ : BufTy).Contents (Elt F) → (⟨S4096x16384, .f32⟩ : BufTy).Contents (Elt F)),
    binary main_v46 main_v48 main_v49 (mulf : (⟨S4096x16384, .f32⟩ : BufTy).Contents (Elt F) → (⟨S4096x16384, .f32⟩ : BufTy).Contents (Elt F) → (⟨S4096x16384, .f32⟩ : BufTy).Contents (Elt F)),
    nullary main_cst_10 (constant S_ .f32 0x00000000#32),
    unary main_cst_10 main_v50 (broadcastInDim S4096x512 ![] bcast_S_S4096x512 : (⟨S_, .f32⟩ : BufTy).Contents (Elt F) → (⟨S4096x512, .f32⟩ : BufTy).Contents (Elt F)),
    nullary main_c_11 (constantI S_ 32 0#32),
    unary main_c_11 main_v51 (broadcastInDim S16384 ![] bcast_S_S16384 : (⟨S_, .i32⟩ : BufTy).Contents (Elt F) → (⟨S16384, .i32⟩ : BufTy).Contents (Elt F)),
    binary main_arg8 main_v51 main_v52 (cmpi .slt : (⟨S16384, .i32⟩ : BufTy).Contents (Elt F) → (⟨S16384, .i32⟩ : BufTy).Contents (Elt F) → (⟨S16384, .i1⟩ : BufTy).Contents (Elt F)),
    nullary main_c_12 (constantI S_ 32 512#32),
    unary main_c_12 main_v53 (broadcastInDim S16384 ![] bcast_S_S16384 : (⟨S_, .i32⟩ : BufTy).Contents (Elt F) → (⟨S16384, .i32⟩ : BufTy).Contents (Elt F)),
    binary main_arg8 main_v53 main_v54 (addi : (⟨S16384, .i32⟩ : BufTy).Contents (Elt F) → (⟨S16384, .i32⟩ : BufTy).Contents (Elt F) → (⟨S16384, .i32⟩ : BufTy).Contents (Elt F)),
    ternary main_v52 main_v54 main_arg8 main_v55 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v55 main_v56 (broadcastInDim S16384x1 ![0] bcast_S16384_S16384x1_0 : (⟨S16384, .i32⟩ : BufTy).Contents (Elt F) → (⟨S16384x1, .i32⟩ : BufTy).Contents (Elt F)),
    ternary main_v50 main_v56 main_v49 main_v57 ((fun x i u => Host.scatterAdd scatter_S4096x512_S16384x1_S4096x16384_0_1_1_1 x i u) : (⟨S4096x512, .f32⟩ : BufTy).Contents (Elt F) → (⟨S16384x1, .i32⟩ : BufTy).Contents (Elt F) → (⟨S4096x16384, .f32⟩ : BufTy).Contents (Elt F) → (⟨S4096x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x512, .f32⟩) main_call2_v0) (broadcastInDim S4096x512 ![] bcast_S_S4096x512),
    TRef.binary (TRef.of (T := ⟨S4096x512, .f32⟩) main_v57) (TRef.of (T := ⟨S4096x512, .f32⟩) main_call2_v0) (TRef.of (T := ⟨S4096x512, .f32⟩) main_v58) maximumf ]

/-- The program's operations are the three stretches in order. -/
theorem ops_split : (ops : List (HloOp τ sig (Elt F))) = ops1 ++ (ops2 ++ ops3) := rfl

end Lists

set_option maxHeartbeats 4000000 in
/-- The first stretch leaves the first level's value of the contents it starts from. -/
theorem chunk1 (W : Valuation τ sig (Elt Ideal)) :
    after (ops1 (F := Ideal)) W (Proc.devRef .tc main_v18)
      = maximumf
        (Host.scatterAdd scatter_S4096x1536_S49152x1_S4096x49152_0_1_1_1
          (broadcastInDim S4096x1536 ![] bcast_S_S4096x1536 (constant (F := Ideal) S_ .f32 0x00000000#32))
          (broadcastInDim S49152x1 ![0] bcast_S49152_S49152x1_0 (nrm bcast_S_S49152 1536#32 (W (Proc.devRef .tc main_arg2))))
          (mulf (Host.gather gather_S4096x512_S49152x1_S4096x49152_0_1_n_n_1_1_40961 (W (Proc.devRef .tc main_arg0))
              (broadcastInDim S49152x1 ![0] bcast_S49152_S49152x1_0 (nrm bcast_S_S49152 512#32 (W (Proc.devRef .tc main_arg1)))))
            (broadcastInDim S4096x49152 ![0, 1] bcast_S1x49152_S4096x49152_0_1 (broadcastInDim S1x49152 ![1] bcast_S49152_S1x49152_1 (W (Proc.devRef .tc main_arg3))))))
        (broadcastInDim S4096x1536 ![] bcast_S_S4096x1536 (constant (F := Ideal) S_ .f32 0x00000000#32)) := by
  after_results
  rfl

set_option maxHeartbeats 4000000 in
/-- The second stretch first lays the first level's result beside the inputs. -/
theorem chunk2_row (W : Valuation τ sig (Elt Ideal)) :
    after (ops2 (F := Ideal)) W (Proc.devRef .tc main_v19) = (concatenate S4096x2048 1 [⟨S4096x512, (W (Proc.devRef .tc main_arg0))⟩, ⟨S4096x1536, (W (Proc.devRef .tc main_v18))⟩] concatenates_S4096x512_S4096x1536_S4096x2048_d1) := by
  after_results

set_option maxHeartbeats 4000000 in
/-- The second stretch leaves the second level's value of that extended array. -/
theorem chunk2 (W : Valuation τ sig (Elt Ideal)) :
    after (ops2 (F := Ideal)) W (Proc.devRef .tc main_v38)
      = maximumf
        (Host.scatterAdd scatter_S4096x1536_S49152x1_S4096x49152_0_1_1_1
          (broadcastInDim S4096x1536 ![] bcast_S_S4096x1536 (constant (F := Ideal) S_ .f32 0x00000000#32))
          (broadcastInDim S49152x1 ![0] bcast_S49152_S49152x1_0 (nrm bcast_S_S49152 1536#32 (W (Proc.devRef .tc main_arg5))))
          (mulf (Host.gather gather_S4096x2048_S49152x1_S4096x49152_0_1_n_n_1_1_40961 (concatenate S4096x2048 1 [⟨S4096x512, (W (Proc.devRef .tc main_arg0))⟩, ⟨S4096x1536, (W (Proc.devRef .tc main_v18))⟩] concatenates_S4096x512_S4096x1536_S4096x2048_d1)
              (broadcastInDim S49152x1 ![0] bcast_S49152_S49152x1_0 (nrm bcast_S_S49152 2048#32 (W (Proc.devRef .tc main_arg4)))))
            (broadcastInDim S4096x49152 ![0, 1] bcast_S1x49152_S4096x49152_0_1 (broadcastInDim S1x49152 ![1] bcast_S49152_S1x49152_1 (W (Proc.devRef .tc main_arg6))))))
        (broadcastInDim S4096x1536 ![] bcast_S_S4096x1536 (constant (F := Ideal) S_ .f32 0x00000000#32)) := by
  after_results
  rfl

set_option maxHeartbeats 4000000 in
/-- The third stretch lays the second level's result beside the array so far and leaves the third level's value. -/
theorem chunk3 (W : Valuation τ sig (Elt Ideal)) :
    after (ops3 (F := Ideal)) W (Proc.devRef .tc main_v58)
      = maximumf
        (Host.scatterAdd scatter_S4096x512_S16384x1_S4096x16384_0_1_1_1
          (broadcastInDim S4096x512 ![] bcast_S_S4096x512 (constant (F := Ideal) S_ .f32 0x00000000#32))
          (broadcastInDim S16384x1 ![0] bcast_S16384_S16384x1_0 (nrm bcast_S_S16384 512#32 (W (Proc.devRef .tc main_arg8))))
          (mulf (Host.gather gather_S4096x3584_S16384x1_S4096x16384_0_1_n_n_1_1_40961 (concatenate S4096x3584 1 [⟨S4096x2048, (W (Proc.devRef .tc main_v19))⟩, ⟨S4096x1536, (W (Proc.devRef .tc main_v38))⟩] concatenates_S4096x2048_S4096x1536_S4096x3584_d1)
              (broadcastInDim S16384x1 ![0] bcast_S16384_S16384x1_0 (nrm bcast_S_S16384 3584#32 (W (Proc.devRef .tc main_arg7)))))
            (broadcastInDim S4096x16384 ![0, 1] bcast_S1x16384_S4096x16384_0_1 (broadcastInDim S1x16384 ![1] bcast_S16384_S1x16384_1 (W (Proc.devRef .tc main_arg9))))))
        (broadcastInDim S4096x512 ![] bcast_S_S4096x512 (constant (F := Ideal) S_ .f32 0x00000000#32)) := by
  after_results
  rfl

end Cert.ReferenceChunks

end
-- ==== Proof.ReferenceLevel.lean ====
import proofs.«412913_j33715493274267_3_alg».proof.Proof.RowForms
import proofs.«412913_j33715493274267_3_alg».proof.Proof.IndexReaders
import proofs.«412913_j33715493274267_3_alg».proof.Proof.Edges
import Idealize.ShloMosaic.PureOps.Ideal.Laws
import Idealize.ShloMosaic.Lib.StableHlo.Predicate

/-!
One level of the reference, read at one entry.

The reference gathers, for every edge, the column of node values at the edge's source, multiplies it by the
edge's weight, and scatter-adds the products by destination into a zero array before rectifying. An update
at (row b', edge e) lands at (b', destination number of e), so the entry at (b, q) is zero plus the sum, over
the edges whose destination number is q, of (the value of row b at the edge's source node) × (the edge's
weight): the row form `rLevel` of batch row b.
-/

noncomputable section

namespace Cert.ReferenceLevel

open Idealize.ShloMosaic Idealize.ShloMosaic.ValueIdx Idealize.ShloMosaic.StableHlo.Predicate Cert.LevelSpec Cert.RowForms Cert.Edges

/-- The rank-1 index at a coordinate, in its two spellings. -/
theorem ofFin_eq_ix1 {n : ℕ} (k : Fin n) : (Shape.Idx.ofFin k : (⟨1, ![n]⟩ : Shape).Idx) = ix1 k := by
  funext a
  match a with
  | ⟨0, _⟩ => rfl

/-- The rank-2 index at (p, q), in its two spellings. -/
theorem ix2_eq_ij {n m : ℕ} (p : Fin n) (q : Fin m) : (ix2 p q : (⟨2, ![n, m]⟩ : Shape).Idx) = ij p q := by
  funext a
  match a with
  | ⟨0, _⟩ => rfl
  | ⟨1, _⟩ => rfl

/-- Row p of a one-column array, in its two spellings. -/
theorem ix2_zero_eq_ixP {n : ℕ} (p : Fin n) : (ix2 p (0 : Fin 1) : (⟨2, ![n, 1]⟩ : Shape).Idx) = ixP p := by
  funext a
  match a with
  | ⟨0, _⟩ => rfl
  | ⟨1, _⟩ => rfl

/-- The zero array reads 0 everywhere. -/
theorem zero_apply {t : Shape} (hz : (⟨0, ![]⟩ : Shape).BroadcastsInDim t (![] : Fin 0 → Fin t.rank)) (j : t.Idx) :
    broadcastInDim t ![] hz (constant (F := Ideal) ⟨0, ![]⟩ .f32 0x00000000#32) j = 0 := by
  rw [bcast_scalar hz (by decide), constant_apply, Ideal.ofBits_zero_f32]

/-- A vector stood up as a one-column array reads, at row e, the vector at e. -/
theorem col_apply {α : Type} {E : ℕ} (hb : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ ![0] hb v (ix2 e (0 : Fin 1)) = v (ix1 e) := by
  rw [ix2_zero_eq_ixP, bcast_col1, ofFin_eq_ix1]

/-- A vector laid along the second axis of a [B, E] array reads, at (b, e), the vector at e. -/
theorem row_apply {α : Type} {B E : ℕ} (hr : (⟨1, ![E]⟩ : Shape).BroadcastsInDim ⟨2, ![1, E]⟩ (![1] : Fin 1 → Fin 2))
    (hrr : (⟨2, ![1, E]⟩ : Shape).BroadcastsInDim ⟨2, ![B, E]⟩ (![0, 1] : Fin 2 → Fin 2))
    (v : (⟨1, ![E]⟩ : Shape).Idx → α) (b : Fin B) (e : Fin E) :
    broadcastInDim ⟨2, ![B, E]⟩ ![0, 1] hrr (broadcastInDim ⟨2, ![1, E]⟩ ![1] hr v) (ix2 b e) = v (ix1 e) := by
  rw [ix2_eq_ij, bcast_cols, ofFin_eq_ix1]

/-- A column scatter-add read at (b, q): the operand there, plus the updates of row b over the edges whose
    start number is q. -/
theorem scatter_cols_apply {B D E w : ℕ} (ds : ScatterDims ⟨2, ![B, D]⟩ ⟨2, ![E, 1]⟩ ⟨2, ![B, E]⟩)
    (huw : ds.updateWindowDims = [0]) (hiw : ds.insertedWindowDims = [1])
    (hsd : ds.scatterDimsToOperandDims = [1]) (hsiv : ds.indexVectorDim = 1)
    (x : FVec Ideal ⟨2, ![B, D]⟩ .f32) (idx : IVec ⟨2, ![E, 1]⟩ w) (upd : FVec Ideal ⟨2, ![B, E]⟩ .f32)
    (b : Fin B) (q : Fin D) :
    Host.scatterAdd ds x idx upd (ix2 b q)
      = x (ix2 b q) + ∑ e ∈ Finset.univ.filter (fun e : Fin E => (idx (ix2 e (0 : Fin 1))).toInt = (q.val : ℤ)),
          upd (ix2 b e) := by
  simp only [Host.scatterAdd, Ideal.hostScatterAdd_def, Ideal.hostScatterAdd]
  congr 1
  have split : ∀ j : (⟨2, ![B, E]⟩ : Shape).Idx, ∃ (b' : Fin B) (e : Fin E), j = ix2 b' e :=
    fun j => ⟨j 0, j 1, eq_ix2 j⟩
  refine Finset.sum_nbij' (fun j => (j 1 : Fin E)) (fun e => ix2 b e) ?_ ?_ ?_ ?_ ?_
  · intro j hj
    obtain ⟨b', e, rfl⟩ := split j
    have h := (Cert.IndexReaders.resultIdx_cols ds huw hiw hsd hsiv idx b' e b q).1 (Finset.mem_filter.1 hj).2
    exact Finset.mem_filter.2 ⟨Finset.mem_univ e, h.2⟩
  · intro e he
    have h := (Finset.mem_filter.1 he).2
    exact Finset.mem_filter.2 ⟨Finset.mem_univ _,
      (Cert.IndexReaders.resultIdx_cols ds huw hiw hsd hsiv idx b e b q).2 ⟨rfl, h⟩⟩
  · intro j hj
    obtain ⟨b', e, rfl⟩ := split j
    have h := (Cert.IndexReaders.resultIdx_cols ds huw hiw hsd hsiv idx b' e b q).1 (Finset.mem_filter.1 hj).2
    show ix2 b e = ix2 b' e
    rw [h.1]
  · intro e _
    rfl
  · intro j hj
    obtain ⟨b', e, rfl⟩ := split j
    have h := (Cert.IndexReaders.resultIdx_cols ds huw hiw hsd hsiv idx b' e b q).1 (Finset.mem_filter.1 hj).2
    show upd (ix2 b' e) = upd (ix2 b e)
    rw [h.1]

/-- One level of the reference, read at batch row b and destination q: gather the source columns, weigh them,
    scatter-add by destination into a zero array, rectify. -/
theorem ref_level_apply {B N D E : ℕ} (hN : 0 < N)
    (dg : GatherDims ⟨2, ![B, N]⟩ ⟨2, ![E, 1]⟩ ⟨2, ![B, E]⟩)
    (hoff : dg.offsetDims = [0]) (hcoll : dg.collapsedSliceDims = [1]) (hob : dg.operandBatchingDims = [])
    (hsim : dg.startIndexMap = [1]) (hgiv : dg.indexVectorDim = 1)
    (ds : ScatterDims ⟨2, ![B, D]⟩ ⟨2, ![E, 1]⟩ ⟨2, ![B, E]⟩)
    (huw : ds.updateWindowDims = [0]) (hiw : ds.insertedWindowDims = [1])
    (hsd : ds.scatterDimsToOperandDims = [1]) (hsiv : ds.indexVectorDim = 1)
    (hz : (⟨0, ![]⟩ : Shape).BroadcastsInDim ⟨2, ![B, D]⟩ (![] : Fin 0 → Fin 2))
    (hb : (⟨1, ![E]⟩ : Shape).BroadcastsInDim ⟨2, ![E, 1]⟩ (![0] : Fin 1 → Fin 2))
    (hr : (⟨1, ![E]⟩ : Shape).BroadcastsInDim ⟨2, ![1, E]⟩ (![1] : Fin 1 → Fin 2))
    (hrr : (⟨2, ![1, E]⟩ : Shape).BroadcastsInDim ⟨2, ![B, E]⟩ (![0, 1] : Fin 2 → Fin 2))
    (NV : FVec Ideal ⟨2, ![B, N]⟩ .f32) (ns nd : IVec ⟨1, ![E]⟩ 32) (W : FVec Ideal ⟨1, ![E]⟩ .f32)
    (b : Fin B) (q : Fin D) :
    maximumf
        (Host.scatterAdd ds (broadcastInDim ⟨2, ![B, D]⟩ ![] hz (constant (F := Ideal) ⟨0, ![]⟩ .f32 0x00000000#32))
          (broadcastInDim ⟨2, ![E, 1]⟩ ![0] hb nd)
          (mulf (Host.gather dg NV (broadcastInDim ⟨2, ![E, 1]⟩ ![0] hb ns))
            (broadcastInDim ⟨2, ![B, E]⟩ ![0, 1] hrr (broadcastInDim ⟨2, ![1, E]⟩ ![1] hr W))))
        (broadcastInDim ⟨2, ![B, D]⟩ ![] hz (constant (F := Ideal) ⟨0, ![]⟩ .f32 0x00000000#32)) (ix2 b q)
      = rLevel (srcNode N hN ns) (dstNum nd) (fun e => W (ix1 e)) (fun k => NV (ix2 b k)) q := by
  rw [maximumf_apply, zero_apply hz, scatter_cols_apply ds huw hiw hsd hsiv, zero_apply hz]
  unfold rLevel
  congr 2
  refine Finset.sum_congr (Finset.filter_congr fun e _ => ?_) fun e _ => ?_
  · rw [col_apply hb nd e]
    rfl
  · rw [mulf_apply, Cert.IndexReaders.gather_cols dg hoff hcoll hob hsim hgiv NV _ b e hN, row_apply hr hrr W b e]
    congr 2
    unfold srcNode
    congr 1
    apply Fin.ext
    show min (broadcastInDim ⟨2, ![E, 1]⟩ ![0] hb ns (ix2 e (0 : Fin 1))).toInt.toNat (N - 1)
      = min (ns (ix1 e)).toInt.toNat (N - 1)
    rw [col_apply hb ns e]

end Cert.ReferenceLevel

end
-- ==== Proof.ReferenceValue.lean ====
import proofs.«412913_j33715493274267_3_alg».proof.Proof.ReferenceRun
import proofs.«412913_j33715493274267_3_alg».proof.Proof.ReferenceLevel
import proofs.«412913_j33715493274267_3_alg».proof.Proof.Normalise
import Idealize.ShloMosaic.Lib.Pipeline.Value

/-!
The reference's output array as one function of its ten input arrays, and its entry (b, q) as the reference's
row of batch row b.

Each level gathers source columns of the array of node values so far, weighs them, scatter-adds by destination
and rectifies; between levels the new columns are laid beside the old ones. Row b of such a side-by-side array
is row b of the old array followed by row b of the new one, so the whole computation on row b is the three
levels applied to rows, each to the row extended by the level before.
-/

noncomputable section

namespace Cert.ReferenceValue

open Cert.ReferenceIdeal Cert.ReferenceIdeal.Gen Idealize.ShloMosaic Idealize.ShloMosaic.ValueIdx
open Cert.RowForms Cert.Edges Cert.Normalise Cert.ReferenceLevel

/-- Row r of two arrays laid side by side is row r of the first followed by row r of the second. -/
theorem concat_row {B a b n : ℕ} (hab : a + b = n)
    (h : Shape.Concatenates [(⟨2, ![B, a]⟩ : Shape), ⟨2, ![B, b]⟩] ⟨2, ![B, n]⟩ 1)
    (U : FVec Ideal ⟨2, ![B, a]⟩ .f32) (Vv : FVec Ideal ⟨2, ![B, b]⟩ .f32) (r : Fin B) :
    (fun k : Fin n => concatenate ⟨2, ![B, n]⟩ 1 [⟨⟨2, ![B, a]⟩, U⟩, ⟨⟨2, ![B, b]⟩, Vv⟩] h (ix2 r k))
      = rAppend hab (fun k => U (ix2 r k)) (fun j => Vv (ix2 r j)) := by
  funext k
  unfold rAppend
  split
  · rename_i hk
    exact concatenate_pair_apply_left 1 U Vv h (ix2 r k) rfl (ix2 r ⟨k.val, hk⟩)
      (fun c => by match c with | ⟨0, _⟩ => rfl | ⟨1, _⟩ => rfl)
  · rename_i hk
    exact concatenate_pair_apply_right 1 U Vv h (ix2 r k) rfl rfl (ix2 r ⟨k.val - a, by omega⟩)
      (fun c hc => by match c with | ⟨0, _⟩ => rfl | ⟨1, _⟩ => exact absurd rfl hc)
      (by show (k.val - a) + a = k.val; omega)

/-- The first hidden array. -/
def hid1 (X : FVec Ideal S4096x512 .f32) (s0 d0 : IVec S49152 32) (w0 : FVec Ideal S49152 .f32) :
    FVec Ideal S4096x1536 .f32 :=
  maximumf
      (Host.scatterAdd scatter_S4096x1536_S49152x1_S4096x49152_0_1_1_1
        (broadcastInDim S4096x1536 ![] bcast_S_S4096x1536 (constant (F := Ideal) S_ .f32 0x00000000#32))
        (broadcastInDim S49152x1 ![0] bcast_S49152_S49152x1_0 (nrm bcast_S_S49152 1536#32 d0))
        (mulf (Host.gather gather_S4096x512_S49152x1_S4096x49152_0_1_n_n_1_1_40961 X (broadcastInDim S49152x1 ![0] bcast_S49152_S49152x1_0 (nrm bcast_S_S49152 512#32 s0)))
          (broadcastInDim S4096x49152 ![0, 1] bcast_S1x49152_S4096x49152_0_1 (broadcastInDim S1x49152 ![1] bcast_S49152_S1x49152_1 w0))))
      (broadcastInDim S4096x1536 ![] bcast_S_S4096x1536 (constant (F := Ideal) S_ .f32 0x00000000#32))

/-- The inputs with the first hidden array beside them. -/
def nv2 (X : FVec Ideal S4096x512 .f32) (s0 d0 : IVec S49152 32) (w0 : FVec Ideal S49152 .f32) :
    FVec Ideal S4096x2048 .f32 :=
  concatenate S4096x2048 1 [⟨S4096x512, X⟩, ⟨S4096x1536, hid1 X s0 d0 w0⟩] concatenates_S4096x512_S4096x1536_S4096x2048_d1

/-- The second hidden array. -/
def hid2 (X : FVec Ideal S4096x512 .f32) (s0 d0 : IVec S49152 32) (w0 : FVec Ideal S49152 .f32)
    (s1 d1 : IVec S49152 32) (w1 : FVec Ideal S49152 .f32) : FVec Ideal S4096x1536 .f32 :=
  maximumf
      (Host.scatterAdd scatter_S4096x1536_S49152x1_S4096x49152_0_1_1_1
        (broadcastInDim S4096x1536 ![] bcast_S_S4096x1536 (constant (F := Ideal) S_ .f32 0x00000000#32))
        (broadcastInDim S49152x1 ![0] bcast_S49152_S49152x1_0 (nrm bcast_S_S49152 1536#32 d1))
        (mulf (Host.gather gather_S4096x2048_S49152x1_S4096x49152_0_1_n_n_1_1_40961 (nv2 X s0 d0 w0) (broadcastInDim S49152x1 ![0] bcast_S49152_S49152x1_0 (nrm bcast_S_S49152 2048#32 s1)))
          (broadcastInDim S4096x49152 ![0, 1] bcast_S1x49152_S4096x49152_0_1 (broadcastInDim S1x49152 ![1] bcast_S49152_S1x49152_1 w1))))
      (broadcastInDim S4096x1536 ![] bcast_S_S4096x1536 (constant (F := Ideal) S_ .f32 0x00000000#32))

/-- All node values before the output level. -/
def nv3 (X : FVec Ideal S4096x512 .f32) (s0 d0 : IVec S49152 32) (w0 : FVec Ideal S49152 .f32)
    (s1 d1 : IVec S49152 32) (w1 : FVec Ideal S49152 .f32) : FVec Ideal S4096x3584 .f32 :=
  concatenate S4096x3584 1 [⟨S4096x2048, nv2 X s0 d0 w0⟩, ⟨S4096x1536, hid2 X s0 d0 w0 s1 d1 w1⟩]
    concatenates_S4096x2048_S4096x1536_S4096x3584_d1

/-- The reference's output array. -/
def refOut (X : FVec Ideal S4096x512 .f32) (s0 d0 : IVec S49152 32) (w0 : FVec Ideal S49152 .f32)
    (s1 d1 : IVec S49152 32) (w1 : FVec Ideal S49152 .f32)
    (s2 d2 : IVec S16384 32) (w2 : FVec Ideal S16384 .f32) : FVec Ideal S4096x512 .f32 :=
  maximumf
      (Host.scatterAdd scatter_S4096x512_S16384x1_S4096x16384_0_1_1_1
        (broadcastInDim S4096x512 ![] bcast_S_S4096x512 (constant (F := Ideal) S_ .f32 0x00000000#32))
        (broadcastInDim S16384x1 ![0] bcast_S16384_S16384x1_0 (nrm bcast_S_S16384 512#32 d2))
        (mulf (Host.gather gather_S4096x3584_S16384x1_S4096x16384_0_1_n_n_1_1_40961 (nv3 X s0 d0 w0 s1 d1 w1) (broadcastInDim S16384x1 ![0] bcast_S16384_S16384x1_0 (nrm bcast_S_S16384 3584#32 s2)))
          (broadcastInDim S4096x16384 ![0, 1] bcast_S1x16384_S4096x16384_0_1 (broadcastInDim S1x16384 ![1] bcast_S16384_S1x16384_1 w2))))
      (broadcastInDim S4096x512 ![] bcast_S_S4096x512 (constant (F := Ideal) S_ .f32 0x00000000#32))

/-- Entry (b, q) of the reference's output is the reference's row of batch row b, at q. -/
theorem refOut_apply (X : FVec Ideal S4096x512 .f32) (s0 d0 : IVec S49152 32) (w0 : FVec Ideal S49152 .f32)
    (s1 d1 : IVec S49152 32) (w1 : FVec Ideal S49152 .f32)
    (s2 d2 : IVec S16384 32) (w2 : FVec Ideal S16384 .f32) (b : Fin 4096) (q : Fin 512) :
    refOut X s0 d0 w0 s1 d1 w1 s2 d2 w2 (ix2 b q)
      = rNet (srcNode 512 (by norm_num) (nrm bcast_S_S49152 512#32 s0)) (dstNum (nrm bcast_S_S49152 1536#32 d0))
          (fun e => w0 (ix1 e))
          (srcNode 2048 (by norm_num) (nrm bcast_S_S49152 2048#32 s1)) (dstNum (nrm bcast_S_S49152 1536#32 d1))
          (fun e => w1 (ix1 e))
          (srcNode 3584 (by norm_num) (nrm bcast_S_S16384 3584#32 s2)) (dstNum (nrm bcast_S_S16384 512#32 d2))
          (fun e => w2 (ix1 e))
          (fun k => X (ix2 b k)) q := by
  have L1 : (fun j : Fin 1536 => hid1 X s0 d0 w0 (ix2 b j))
      = rLevel (srcNode 512 (by norm_num) (nrm bcast_S_S49152 512#32 s0)) (dstNum (nrm bcast_S_S49152 1536#32 d0))
          (fun e => w0 (ix1 e)) (fun k => X (ix2 b k)) := funext fun j => by
    unfold hid1
    exact ref_level_apply (by norm_num) _ rfl rfl rfl rfl rfl _ rfl rfl rfl rfl _ _ _ _ X _ _ w0 b j
  have R2 : (fun k : Fin 2048 => nv2 X s0 d0 w0 (ix2 b k))
      = rAppend (by norm_num : 512 + 1536 = 2048) (fun k => X (ix2 b k)) (fun j => hid1 X s0 d0 w0 (ix2 b j)) := by
    unfold nv2
    exact concat_row (by norm_num) _ X (hid1 X s0 d0 w0) b
  have L2 : (fun j : Fin 1536 => hid2 X s0 d0 w0 s1 d1 w1 (ix2 b j))
      = rLevel (srcNode 2048 (by norm_num) (nrm bcast_S_S49152 2048#32 s1)) (dstNum (nrm bcast_S_S49152 1536#32 d1))
          (fun e => w1 (ix1 e)) (fun k => nv2 X s0 d0 w0 (ix2 b k)) := funext fun j => by
    unfold hid2
    exact ref_level_apply (by norm_num) _ rfl rfl rfl rfl rfl _ rfl rfl rfl rfl _ _ _ _ (nv2 X s0 d0 w0) _ _ w1 b j
  have R3 : (fun k : Fin 3584 => nv3 X s0 d0 w0 s1 d1 w1 (ix2 b k))
      = rAppend (by norm_num : 2048 + 1536 = 3584) (fun k => nv2 X s0 d0 w0 (ix2 b k))
          (fun j => hid2 X s0 d0 w0 s1 d1 w1 (ix2 b j)) := by
    unfold nv3
    exact concat_row (by norm_num) _ (nv2 X s0 d0 w0) (hid2 X s0 d0 w0 s1 d1 w1) b
  unfold refOut
  rw [ref_level_apply (by norm_num) _ rfl rfl rfl rfl rfl _ rfl rfl rfl rfl _ _ _ _ (nv3 X s0 d0 w0 s1 d1 w1) _ _ w2 b q]
  unfold rNet
  rw [R3, L2, R2, L1]

end Cert.ReferenceValue

end
-- ==== Proof.ReferenceAlgebra.lean ====
import proofs.«412913_j33715493274267_3_alg».proof.Proof.RowForms

/-!
The reference's row is the network, on real inputs.

Every expression in the reference's row is built from readings of reals in the extended reals by products,
finite sums, a leading zero and the maximum with zero, and each of these commutes with the reading: a
product of readings is the reading of the product, a finite sum of readings is the reading of the sum, and
the extended maximum with zero is the reading of the real one. So each level's row of readings is the
reading of the real level's row, appending rows of readings gives the readings of the appended row, and
chaining the three levels gives the reading of the real network.
-/

noncomputable section

namespace Cert.ReferenceAlgebra

open Finset Cert.EdgeSum Cert.LevelSpec Cert.RowForms

/-- One level of the reference on a row of reals with real weights: the leading zero drops, each product of
    readings is the reading of the product, the finite sum of readings is the reading of the sum, and the
    extended maximum with zero is the reading of the real one. So the level is the real level, read in the
    extended reals. -/
theorem rLevel_coe {N D E : ℕ} (s : Fin E → Fin N) (dn : Fin E → ℤ) (w : Fin E → ℝ) (r : Fin N → ℝ)
    (q : Fin D) :
    rLevel s dn (fun e => (w e : EReal)) (fun k => (r k : EReal)) q
      = ((level s dn w r q : ℝ) : EReal) := by
  unfold rLevel level
  rw [zero_add, ← coe_relu, coe_sum]
  simp only [EReal.coe_mul]

/-- The same, as an equality of rows. -/
theorem rLevel_coe_row {N D E : ℕ} (s : Fin E → Fin N) (dn : Fin E → ℤ) (w : Fin E → ℝ) (r : Fin N → ℝ) :
    (rLevel s dn (fun e => (w e : EReal)) (fun k => (r k : EReal)) : Fin D → EReal)
      = fun q => ((level s dn w r q : ℝ) : EReal) :=
  funext (rLevel_coe s dn w r)

/-- Laying two rows of readings end to end gives the readings of the rows laid end to end: both sides pick
    the same entry on either side of the joint. -/
theorem rAppend_coe {a b n : ℕ} (h : a + b = n) (u : Fin a → ℝ) (v : Fin b → ℝ) (k : Fin n) :
    rAppend h (fun i => (u i : EReal)) (fun j => (v j : EReal)) k = ((append h u v k : ℝ) : EReal) := by
  unfold rAppend append
  split_ifs <;> rfl

/-- The same, as an equality of rows. -/
theorem rAppend_coe_row {a b n : ℕ} (h : a + b = n) (u : Fin a → ℝ) (v : Fin b → ℝ) :
    rAppend h (fun i => (u i : EReal)) (fun j => (v j : EReal))
      = fun k => ((append h u v k : ℝ) : EReal) :=
  funext (rAppend_coe h u v)

/-- On a row of reals with real weights, the reference's row is the network: level by level, each level's
    row of readings is the reading of the real level's row, and so is each appended row. -/
theorem rNet_eq (s0 : Fin 49152 → Fin 512) (d0 : Fin 49152 → ℤ) (w0 : Fin 49152 → ℝ)
    (s1 : Fin 49152 → Fin 2048) (d1 : Fin 49152 → ℤ) (w1 : Fin 49152 → ℝ)
    (s2 : Fin 16384 → Fin 3584) (d2 : Fin 16384 → ℤ) (w2 : Fin 16384 → ℝ)
    (x : Fin 512 → ℝ) (q : Fin 512) :
    rNet s0 d0 (fun e => (w0 e : EReal)) s1 d1 (fun e => (w1 e : EReal)) s2 d2 (fun e => (w2 e : EReal))
        (fun k => (x k : EReal)) q
      = ((net s0 d0 w0 s1 d1 w1 s2 d2 w2 x q : ℝ) : EReal) := by
  unfold rNet net
  simp only [rLevel_coe_row, rAppend_coe_row]

end Cert.ReferenceAlgebra

end
-- ==== Proof.ReferenceBridge.lean ====
import proofs.«412913_j33715493274267_3_alg».proof.Proof.ReferenceValue
import proofs.«412913_j33715493274267_3_alg».proof.Proof.ReferenceAlgebra
import proofs.«412913_j33715493274267_3_alg».proof.Proof.Spec

/-!
The reference's output array is the specification, when every entry of x and of the weights is a real number:
entry by entry its row form is the network on the row's real parts.
-/

noncomputable section

namespace Cert.ReferenceBridge

open Cert.ReferenceIdeal Cert.ReferenceIdeal.Gen Idealize.ShloMosaic Idealize.ShloMosaic.ValueIdx
open Cert.RowForms Cert.Edges Cert.Normalise Cert.ReferenceValue Cert.Spec

theorem refOut_eq_G (X : FVec Ideal S4096x512 .f32) (s0 d0 : IVec S49152 32) (w0 : FVec Ideal S49152 .f32)
    (s1 d1 : IVec S49152 32) (w1 : FVec Ideal S49152 .f32)
    (s2 d2 : IVec S16384 32) (w2 : FVec Ideal S16384 .f32)
    (hx : ∀ i, ∃ r : ℝ, X i = (r : EReal)) (h0 : ∀ e, ∃ r : ℝ, w0 e = (r : EReal))
    (h1 : ∀ e, ∃ r : ℝ, w1 e = (r : EReal)) (h2 : ∀ e, ∃ r : ℝ, w2 e = (r : EReal)) :
    refOut X s0 d0 w0 s1 d1 w1 s2 d2 w2 = G bcast_S_S49152 bcast_S_S16384 X s0 d0 w0 s1 d1 w1 s2 d2 w2 := by
  funext i
  obtain ⟨b, q, rfl⟩ : ∃ (b : Fin 4096) (q : Fin 512), i = ix2 b q := ⟨i 0, i 1, eq_ix2 i⟩
  refine (refOut_apply X s0 d0 w0 s1 d1 w1 s2 d2 w2 b q).trans ?_
  have eX : (fun k : Fin 512 => X (ix2 b k)) = fun k => (((X (ix2 b k)).toReal : ℝ) : EReal) :=
    funext fun k => (coe_toReal_of_real (hx _)).symm
  have e0 : (fun e : Fin 49152 => w0 (ix1 e)) = fun e => (((w0 (ix1 e)).toReal : ℝ) : EReal) :=
    funext fun e => (coe_toReal_of_real (h0 _)).symm
  have e1 : (fun e : Fin 49152 => w1 (ix1 e)) = fun e => (((w1 (ix1 e)).toReal : ℝ) : EReal) :=
    funext fun e => (coe_toReal_of_real (h1 _)).symm
  have e2 : (fun e : Fin 16384 => w2 (ix1 e)) = fun e => (((w2 (ix1 e)).toReal : ℝ) : EReal) :=
    funext fun e => (coe_toReal_of_real (h2 _)).symm
  rw [eX, e0, e1, e2]
  exact Cert.ReferenceAlgebra.rNet_eq _ _ _ _ _ _ _ _ _ _ _

end Cert.ReferenceBridge

end
-- ==== Proof.ReferenceFinal.lean ====
import proofs.«412913_j33715493274267_3_alg».proof.Proof.ReferenceChunks
import proofs.«412913_j33715493274267_3_alg».proof.Proof.ReferenceBridge

/-!
The reference's run, read: every weakly fair execution ends with the result buffer holding the reference's
output array of the ten argument arrays as launched, and the arguments unchanged.

No stretch writes an argument buffer, so each leaves all ten as it found them. Composing the three stretches, the
third level's value is taken of the array the second stretch extended, which holds the second level's value of
the array the first stretch's result extended.
-/

noncomputable section

namespace Cert.ReferenceFinal

open Cert.ReferenceIdeal Cert.ReferenceIdeal.Gen Cert.ReferenceIdeal.RunP Idealize.ShloMosaic Idealize.ShloMosaic.TcCoe
open Idealize.SL.Sem Idealize.ShloMosaic.StableHlo Cert.Normalise Cert.ReferenceChunks Cert.ReferenceValue

/-- The ten argument buffers. -/
abbrev args : List (Ref sig .tc) := [main_arg0, main_arg1, main_arg2, main_arg3, main_arg4, main_arg5, main_arg6, main_arg7, main_arg8, main_arg9]

set_option maxHeartbeats 4000000 in
theorem keep1 (W : Valuation τ sig (Elt Ideal)) :
    ∀ b ∈ args, after (ops1 (F := Ideal)) W (Proc.devRef .tc b) = W (Proc.devRef .tc b) := by
  intro b hb
  simp only [args, List.mem_cons, List.mem_singleton, List.not_mem_nil, or_false] at hb
  rcases hb with rfl | rfl | rfl | rfl | rfl | rfl | rfl | rfl | rfl | rfl <;> (after_results_simp <;> rfl)

set_option maxHeartbeats 4000000 in
theorem keep2 (W : Valuation τ sig (Elt Ideal)) :
    ∀ b ∈ args, after (ops2 (F := Ideal)) W (Proc.devRef .tc b) = W (Proc.devRef .tc b) := by
  intro b hb
  simp only [args, List.mem_cons, List.mem_singleton, List.not_mem_nil, or_false] at hb
  rcases hb with rfl | rfl | rfl | rfl | rfl | rfl | rfl | rfl | rfl | rfl <;> (after_results_simp <;> rfl)

set_option maxHeartbeats 4000000 in
theorem keep3 (W : Valuation τ sig (Elt Ideal)) :
    ∀ b ∈ args, after (ops3 (F := Ideal)) W (Proc.devRef .tc b) = W (Proc.devRef .tc b) := by
  intro b hb
  simp only [args, List.mem_cons, List.mem_singleton, List.not_mem_nil, or_false] at hb
  rcases hb with rfl | rfl | rfl | rfl | rfl | rfl | rfl | rfl | rfl | rfl <;> (after_results_simp <;> rfl)

/-- The whole program leaves every argument buffer as launched. -/
theorem keep_all (V : Valuation τ sig (Elt Ideal)) :
    ∀ b ∈ args, after (ops (F := Ideal)) V (Proc.devRef .tc b) = V (Proc.devRef .tc b) := by
  intro b hb
  rw [ops_split, StableHlo.after_append, StableHlo.after_append, keep3 _ b hb, keep2 _ b hb, keep1 _ b hb]

set_option maxHeartbeats 4000000 in
/-- The whole program leaves, in the result buffer, the reference's output array of the contents it starts from. -/
theorem after_ops (V : Valuation τ sig (Elt Ideal)) :
    after (ops (F := Ideal)) V (Proc.devRef .tc main_v58)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, StableHlo.after_append, StableHlo.after_append, chunk3, chunk2_row, chunk2,
    keep2 _ main_arg7 (by simp [args]), keep2 _ main_arg8 (by simp [args]), keep2 _ main_arg9 (by simp [args]),
    chunk1,
    keep1 _ main_arg0 (by simp [args]), keep1 _ main_arg4 (by simp [args]), keep1 _ main_arg5 (by simp [args]),
    keep1 _ main_arg6 (by simp [args]), keep1 _ main_arg7 (by simp [args]), keep1 _ main_arg8 (by simp [args]),
    keep1 _ main_arg9 (by simp [args])]
  rfl

/-- Every weakly fair execution of the reference terminates with the result buffer at its output array of the
    arguments as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v58).trans ((after_ops _).trans rfl),
       (h c main_arg0).trans ((keep_all _ main_arg0 (by simp [args])).trans rfl),
       (h c main_arg1).trans ((keep_all _ main_arg1 (by simp [args])).trans rfl),
       (h c main_arg2).trans ((keep_all _ main_arg2 (by simp [args])).trans rfl),
       (h c main_arg3).trans ((keep_all _ main_arg3 (by simp [args])).trans rfl),
       (h c main_arg4).trans ((keep_all _ main_arg4 (by simp [args])).trans rfl),
       (h c main_arg5).trans ((keep_all _ main_arg5 (by simp [args])).trans rfl),
       (h c main_arg6).trans ((keep_all _ main_arg6 (by simp [args])).trans rfl),
       (h c main_arg7).trans ((keep_all _ main_arg7 (by simp [args])).trans rfl),
       (h c main_arg8).trans ((keep_all _ main_arg8 (by simp [args])).trans rfl),
       (h c main_arg9).trans ((keep_all _ main_arg9 (by simp [args])).trans rfl)⟩)
    (run_seq scopedRefs_eq scopedSems_eq defs main (fun _ => ops) main_eq (fun _ => ops_sub) m ρ)

end Cert.ReferenceFinal

end
-- ==== Proof.lean ====
/-
  The kernel and its reference are one function of their inputs, over the extended reals.

  The network has three levels. A level takes the row of node values known so far and, for every destination
  node, sums over the edges landing on it (the value at the edge's source) × (the edge's weight), then rectifies;
  the next level sees the old values with the new ones appended. Every operation of either program acts on the
  4096 batch rows independently, so the result's row b is a function of x's row b: the real function
  `Cert.LevelSpec.net`, and the common value of the two programs is `Cert.Spec.G`, the network on each row.

  The REFERENCE computes a level edge by edge: it gathers the source columns, multiplies by the weights and
  scatter-adds by destination into a zero array. The KERNEL first collects each level's weights into a dense
  matrix, entry (s, d) the sum of the weights of the edges from s to d, built on the host by one scatter-add at
  (source, destination) pairs, and then contracts the rows against the matrices in one gridded region, the
  second and third contractions split where the row was appended. That the two agree is distributivity and a
  change of the order of summation (`Cert.EdgeSum.dense_eq_edges`): it needs every entry of x and of the weights
  to be a real number, which the precondition gives, and it needs every source index to name a node of its
  level's range, which the precondition also gives: outside the range the reference's gather clamps the index
  while the kernel's pair scatter drops the edge. A destination index outside its range is dropped by the
  scatter of either program, so it needs no condition.

  Both programs normalise an index vector alike before using it (a negative entry has the axis length added);
  on the sources, which are not negative, that is the identity, and on the destinations it is carried as it is.

  The kernel's frame is generated; its value is read block by block (8 row blocks of 512 tile the array). The
  reference's run is read in three stretches, one per level, cut where a concatenation extends the row.
-/
import proofs.«412913_j33715493274267_3_alg».proof.Defs
import proofs.«412913_j33715493274267_3_alg».proof.Proof.Gen.Kernel
import proofs.«412913_j33715493274267_3_alg».proof.Proof.Gen.Kernel.Skeleton
import proofs.«412913_j33715493274267_3_alg».proof.Proof.Gen.Kernel.Launch
import proofs.«412913_j33715493274267_3_alg».proof.Proof.Gen.Kernel.Points
import proofs.«412913_j33715493274267_3_alg».proof.Proof.Gen.Kernel.Frame
import proofs.«412913_j33715493274267_3_alg».proof.Proof.Gen.KernelIdeal
import proofs.«412913_j33715493274267_3_alg».proof.Proof.Gen.KernelIdeal.Skeleton
import proofs.«412913_j33715493274267_3_alg».proof.Proof.Gen.KernelIdeal.Launch
import proofs.«412913_j33715493274267_3_alg».proof.Proof.Gen.KernelIdeal.Points
import proofs.«412913_j33715493274267_3_alg».proof.Proof.Gen.KernelIdeal.Frame
import proofs.«412913_j33715493274267_3_alg».proof.Proof.Gen.ReferenceIdeal
import proofs.«412913_j33715493274267_3_alg».proof.Proof.Gen.Pre_finite_inputs
import proofs.«412913_j33715493274267_3_alg».proof.Proof.Gen.KernelIdeal.Value
import proofs.«412913_j33715493274267_3_alg».proof.Proof.Domain
import proofs.«412913_j33715493274267_3_alg».proof.Proof.KernelMatrixA
import proofs.«412913_j33715493274267_3_alg».proof.Proof.KernelMatrixB
import proofs.«412913_j33715493274267_3_alg».proof.Proof.KernelMatrixC
import proofs.«412913_j33715493274267_3_alg».proof.Proof.KernelBridge
import proofs.«412913_j33715493274267_3_alg».proof.Proof.ReferenceFinal
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceFinal.run m ρ)

/-- The idealization rewrote nothing. -/
theorem preserves : Cert.preserves_Kernel_KernelIdeal := trivial

/-- From memories agreeing on the arguments, both programs end with the network on each batch row. -/
theorem algebraic : Cert.algebraic_KernelIdeal_ReferenceIdeal := by
  intro m ρ m' ρ' hpre hagree
  refine ⟨fun c => Cert.Spec.G Cert.KernelIdeal.Facts₀.bcast_S_S49152 Cert.KernelIdeal.Facts₀.bcast_S_S16384
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.Value.run_blocks m ρ)
    obtain ⟨hx, h0, h1, h2, r0, r1, r2⟩ := Cert.Domain.of_pre _ _ _ _ _ _ _ _ _ _ (hpre c)
    rw [Cert.KernelArray.final, Cert.KernelIdeal.Gen.V_main_arg0]
    exact Cert.KernelBridge.rows_eq_G _ _ _ _ _ _ _ _ _ _ _ _ _
      (Cert.KernelMatrices.m0_term m c) (Cert.KernelMatrices.m1_term m c) (Cert.KernelMatrices.m2_term m c)
      hx h0 h1 h2 r0 r1 r2
  · refine (θ_run Cert.ReferenceIdeal.defs _ _).mono (fun r h c => ⟨(h c).1.trans ?_, (h c).2⟩)
      (Cert.ReferenceFinal.run m' ρ')
    obtain ⟨hx, h0, h1, h2, -, -, -⟩ := Cert.Domain.of_pre _ _ _ _ _ _ _ _ _ _ (hpre c)
    obtain ⟨a0, a1, a2, a3, a4, a5, a6, a7, a8, a9⟩ := hagree c
    rw [a0, a1, a2, a3, a4, a5, a6, a7, a8, a9]
    exact Cert.ReferenceBridge.refOut_eq_G _ _ _ _ _ _ _ _ _ _ hx h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
